-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000x32 : Shape := ⟨2, ![600000, 32]⟩
abbrev S288x128 : Shape := ⟨2, ![288, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x32 : S_.BroadcastsInDim S600000x32 (![] : Fin 0 → Fin S600000x32.rank)
  reducesTo_S600000x32_S_d0_1 : S600000x32.ReducesTo [0, 1] S_
  bcast_S_S288x128 : S_.BroadcastsInDim S288x128 (![] : Fin 0 → Fin S288x128.rank)
  reducesTo_S288x128_S_d0_1 : S288x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S256x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x600000 32) (main_arg2 : FVec F S600000x32 .f32) (main_arg3 : FVec F S288x128 .f32) (main_arg4 : FVec F S128 .f32) (main_arg5 : FVec F S128x128 .f32) (main_arg6 : FVec F S128 .f32) (main_arg7 : FVec F S256x128 .f32) (main_arg8 : FVec F S128 .f32) (main_arg9 : FVec F S128x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x32 .f32 := Host.absf main_arg2
  let main_cst_0 : FVec F S_ .f32 := constant S_ .f32 0x7F800000#32
  let main_v5 : FVec F S600000x32 .f32 := broadcastInDim S600000x32 ![] bcast_S_S600000x32 main_cst_0
  let main_v6 : IVec S600000x32 1 := cmpf .olt main_v4 main_v5
  let main_c_1 : IVec S_ 1 := constantI S_ 1 1#1
  let main_v7 : IVec S_ 1 := (fun x v => Host.reduce IntOp.andi x v reducesTo_S600000x32_S_d0_1 h_S_) main_v6 main_c_1
  let main_v8 : IVec S_ 1 := andi main_v3 main_v7
  let main_v9 : FVec F S288x128 .f32 := Host.absf main_arg3
  let main_cst_2 : FVec F S_ .f32 := constant S_ .f32 0x7F800000#32
  let main_v10 : FVec F S288x128 .f32 := broadcastInDim S288x128 ![] bcast_S_S288x128 main_cst_2
  let main_v11 : IVec S288x128 1 := cmpf .olt main_v9 main_v10
  let main_c_3 : IVec S_ 1 := constantI S_ 1 1#1
  let main_v12 : IVec S_ 1 := (fun x v => Host.reduce IntOp.andi x v reducesTo_S288x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x600000 : Shape := ⟨2, ![2, 600000]⟩
abbrev S600000x32 : Shape := ⟨2, ![600000, 32]⟩
abbrev S288x128 : Shape := ⟨2, ![288, 128]⟩
abbrev S128 : Shape := ⟨1, ![128]⟩
abbrev S128x128 : Shape := ⟨2, ![128, 128]⟩
abbrev S256x128 : Shape := ⟨2, ![256, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S32x128 : Shape := ⟨2, ![32, 128]⟩
abbrev S1x128 : Shape := ⟨2, ![1, 128]⟩
abbrev S5000x128 : Shape := ⟨2, ![5000, 128]⟩
abbrev S5000x32 : Shape := ⟨2, ![5000, 32]⟩

abbrev nBuf : Space → Nat
  | .hbm => 58
  | .vmem => 25
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x32, .f32⟩
  | .hbm, ⟨3, _⟩ => ⟨S288x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S50000x128, .bf16⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .bf16⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x128, .bf16⟩
  | .hbm, ⟨34, _⟩ => ⟨S600000x32, .bf16⟩
  | .hbm, ⟨35, _⟩ => ⟨S128x128, .f32⟩
  | .hbm, ⟨36, _⟩ => ⟨S128x128, .bf16⟩
  | .hbm, ⟨37, _⟩ => ⟨S128x128, .f32⟩
  | .hbm, ⟨38, _⟩ => ⟨S128x128, .bf16⟩
  | .hbm, ⟨39, _⟩ => ⟨S32x128, .f32⟩
  | .hbm, ⟨40, _⟩ => ⟨S32x128, .bf16⟩
  | .hbm, ⟨41, _⟩ => ⟨S128x128, .bf16⟩
  | .hbm, ⟨42, _⟩ => ⟨S1x128, .f32⟩
  | .hbm, ⟨43, _⟩ => ⟨S1x128, .f32⟩
  | .hbm, ⟨44, _⟩ => ⟨S600000x128, .f32⟩
  | .hbm, ⟨45, _⟩ => ⟨S_, .f32⟩
  | .hbm, ⟨46, _⟩ => ⟨S50000x128, .f32⟩
  | .hbm, ⟨47, _⟩ => ⟨S600000x1, .i32⟩
  | .hbm, ⟨48, _⟩ => ⟨S50000x128, .f32⟩
  | .hbm, ⟨49, _⟩ => ⟨S50000x128, .bf16⟩
  | .hbm, ⟨50, _⟩ => ⟨S128x128, .f32⟩
  | .hbm, ⟨51, _⟩ => ⟨S128x128, .bf16⟩
  | .hbm, ⟨52, _⟩ => ⟨S128x128, .f32⟩
  | .hbm, ⟨53, _⟩ => ⟨S128x128, .bf16⟩
  | .hbm, ⟨54, _⟩ => ⟨S128x128, .bf16⟩
  | .hbm, ⟨55, _⟩ => ⟨S1x128, .f32⟩
  | .hbm, ⟨56, _⟩ => ⟨S1x128, .f32⟩
  | .hbm, ⟨57, _⟩ => ⟨S50000x128, .f32⟩
  | .local _ .vmem, ⟨0, _⟩ => ⟨S5000x128, .bf16⟩
  | .local _ .vmem, ⟨1, _⟩ => ⟨S5000x128, .bf16⟩
  | .local _ .vmem, ⟨2, _⟩ => ⟨S5000x128, .bf16⟩
  | .local _ .vmem, ⟨3, _⟩ => ⟨S5000x128, .bf16⟩
  | .local _ .vmem, ⟨4, _⟩ => ⟨S5000x32, .bf16⟩
  | .local _ .vmem, ⟨5, _⟩ => ⟨S5000x32, .bf16⟩
  | .local _ .vmem, ⟨6, _⟩ => ⟨S128x128, .bf16⟩
  | .local _ .vmem, ⟨7, _⟩ => ⟨S128x128, .bf16⟩
  | .local _ .vmem, ⟨8, _⟩ => ⟨S32x128, .bf16⟩
  | .local _ .vmem, ⟨9, _⟩ => ⟨S1x128, .f32⟩
  | .local _ .vmem, ⟨10, _⟩ => ⟨S128x128, .bf16⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .bf16⟩
  | .local _ .vmem, ⟨15, _⟩ => ⟨S5000x128, .bf16⟩
  | .local _ .vmem, ⟨16, _⟩ => ⟨S5000x128, .bf16⟩
  | .local _ .vmem, ⟨17, _⟩ => ⟨S5000x128, .bf16⟩
  | .local _ .vmem, ⟨18, _⟩ => ⟨S128x128, .bf16⟩
  | .local _ .vmem, ⟨19, _⟩ => ⟨S128x128, .bf16⟩
  | .local _ .vmem, ⟨20, _⟩ => ⟨S1x128, .f32⟩
  | .local _ .vmem, ⟨21, _⟩ => ⟨S128x128, .bf16⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := ⟨1, ![120], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bitsLt_bf16_f32 : FTy.bits .bf16 < FTy.bits .f32
  bcast_S_S600000 : S_.BroadcastsInDim S600000 (![] : Fin 0 → Fin S600000.rank)
  bcast_S600000_S600000x1_0 : S600000.BroadcastsInDim S600000x1 (![0] : Fin 1 → Fin S600000x1.rank)
  slices_S288x128_S128x128_0_0 : S288x128.Slices ![0, 0] S128x128
  slices_S288x128_S128x128_128_0 : S288x128.Slices ![128, 0] S128x128
  slices_S288x128_S32x128_256_0 : S288x128.Slices ![256, 0] S32x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S50000x128 : S_.BroadcastsInDim S50000x128 (![] : Fin 0 → Fin S50000x128.rank)
  slices_S256x128_S128x128_0_0 : S256x128.Slices ![0, 0] S128x128
  slices_S256x128_S128x128_128_0 : S256x128.Slices ![128, 0] S128x128
  gather_S50000x128_S600000x1_S600000x128_1_0_n_n_0_1_1128_wf : GatherDims.WF S50000x128 S600000x1 S600000x128 [1] [0] [] [0] [] 1 ![1, 128]
  dot_S5000x128_S128x128_S5000x128_1_0_0_1_n_n_wf : DotDims.WF S5000x128 S128x128 S5000x128 [1] [0] [0] [1] [] []
  dot_S5000x32_S32x128_S5000x128_1_0_0_1_n_n_wf : DotDims.WF S5000x32 S32x128 S5000x128 [1] [0] [0] [1] [] []
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S600000x128.size a
  hwx0_0 : ∀ i : grid0.Coords, EltTy.bits .bf16 = 32 ∨ (Rect.block (s := S600000x128) S5000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S600000x128.size a
  hwx0_1 : ∀ i : grid0.Coords, EltTy.bits .bf16 = 32 ∨ (Rect.block (s := S600000x128) S5000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S600000x32.size a
  hwx0_2 : ∀ i : grid0.Coords, EltTy.bits .bf16 = 32 ∨ (Rect.block (s := S600000x32) S5000x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x128.size a
  hwx0_5 : ∀ i : grid0.Coords, EltTy.bits .bf16 = 32 ∨ (Rect.block (s := S32x128) S32x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S600000x128.size a
  hwx0_9 : ∀ i : grid0.Coords, EltTy.bits .f32 = 32 ∨ (Rect.block (s := S600000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .bf16 = 32 ∨ (Rect.block (s := S50000x128) S5000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .bf16 = 32 ∨ (Rect.block (s := S50000x128) S5000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_v11) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S5000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S32x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v28) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v29) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v4) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v41) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000x32 : Shape := ⟨2, ![600000, 32]⟩
abbrev S288x128 : Shape := ⟨2, ![288, 128]⟩
abbrev S128 : Shape := ⟨1, ![128]⟩
abbrev S128x128 : Shape := ⟨2, ![128, 128]⟩
abbrev S256x128 : Shape := ⟨2, ![256, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S600000x288 : Shape := ⟨2, ![600000, 288]⟩
abbrev S1x128 : Shape := ⟨2, ![1, 128]⟩
abbrev S50000x256 : Shape := ⟨2, ![50000, 256]⟩

abbrev nBuf : Space → Nat
  | .hbm => 61
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x32, .f32⟩
  | .hbm, ⟨3, _⟩ => ⟨S288x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S600000x288, .f32⟩
  | .hbm, ⟨34, _⟩ => ⟨S600000x128, .f32⟩
  | .hbm, ⟨35, _⟩ => ⟨S1x128, .f32⟩
  | .hbm, ⟨36, _⟩ => ⟨S600000x128, .f32⟩
  | .hbm, ⟨37, _⟩ => ⟨S600000x128, .f32⟩
  | .hbm, ⟨38, _⟩ => ⟨S_, .f32⟩
  | .hbm, ⟨39, _⟩ => ⟨S600000x128, .f32⟩
  | .hbm, ⟨40, _⟩ => ⟨S600000x128, .f32⟩
  | .hbm, ⟨41, _⟩ => ⟨S600000x128, .f32⟩
  | .hbm, ⟨42, _⟩ => ⟨S1x128, .f32⟩
  | .hbm, ⟨43, _⟩ => ⟨S600000x128, .f32⟩
  | .hbm, ⟨44, _⟩ => ⟨S600000x128, .f32⟩
  | .hbm, ⟨45, _⟩ => ⟨S_, .f32⟩
  | .hbm, ⟨46, _⟩ => ⟨S50000x128, .f32⟩
  | .hbm, ⟨47, _⟩ => ⟨S600000x1, .i32⟩
  | .hbm, ⟨48, _⟩ => ⟨S50000x128, .f32⟩
  | .hbm, ⟨49, _⟩ => ⟨S50000x256, .f32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S_, .f32⟩
  | .hbm, ⟨55, _⟩ => ⟨S50000x128, .f32⟩
  | .hbm, ⟨56, _⟩ => ⟨S50000x128, .f32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call1_cst : Ref sig .tc := ⟨.hbm, 54, rfl⟩
abbrev main_call1_v0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x32_S600000x288_d1 : Shape.Concatenates [S600000x128, S600000x128, S600000x32] S600000x288 1
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  dot_S600000x288_S288x128_S600000x128_1_0_0_1_n_n_wf : DotDims.WF S600000x288 S288x128 S600000x128 [1] [0] [0] [1] [] []
  dot_S600000x128_S128x128_S600000x128_1_0_0_1_n_n_wf : DotDims.WF S600000x128 S128x128 S600000x128 [1] [0] [0] [1] [] []
  scatter_S50000x128_S600000x1_S600000x128_1_0_0_1_wf : ScatterDims.WF S50000x128 S600000x1 S600000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x288_S288x128_S600000x128_1_0_0_1_n_n : DotDims S600000x288 S288x128 S600000x128 where
  lhsContracting := [1]
  rhsContracting := [0]
  lhsNonContracting := [0]
  rhsNonContracting := [1]
  lhsBatch := []
  rhsBatch := []
  wf := dot_S600000x288_S288x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/- The two dense layers of the message-passing step, as functions on extended reals.

   An edge's message is a two-layer perceptron of its two endpoint rows and its own feature row: the hidden unit k
   is max(xr·Wa[:,k] + xc·Wb[:,k] + ea·Wc[:,k] + b1[k], 0), and output j is the hidden row times W2[:,j] plus b2[j].
   A node's update is the same with two inputs (its own row and its aggregated messages). Both act row by row, so
   they are stated for any number of rows: a block of rows of the whole array is the layer of the blocks.

   The reference multiplies the CONCATENATED row by the whole first weight; a sum over the joined axis is the sum of
   the sums over the parts (addition of extended reals is commutative and associative; nothing here needs the
   summands finite). -/
import Idealize.ShloMosaic.PureOps.Ideal
import Idealize.ShloMosaic.Lib.ValueIdx
import Mathlib.Algebra.BigOperators.Fin

noncomputable section

namespace Cert.Gnn

open Idealize.ShloMosaic Idealize.ShloMosaic.ValueIdx
open scoped BigOperators

/-- An r × c array of extended reals. -/
abbrev Mat (r c : Nat) : Type := (⟨2, ![r, c]⟩ : Shape).Idx → EReal

/-- The rectifier's threshold: the word of +0.0, read as an extended real. -/
abbrev zeroE : EReal := Ideal.ofBits .f32 0x00000000#32

/-- Hidden unit k of the edge layer on row e. -/
def edgeHidden {R : Nat} (xr xc : Mat R 128) (ea : Mat R 32) (wa wb : Mat 128 128) (wc : Mat 32 128) (b1 : Mat 1 128)
    (e : Fin R) (k : Fin 128) : EReal :=
  max ((((∑ a : Fin 128, xr (ix2 e a) * wa (ix2 a k)) + (∑ a : Fin 128, xc (ix2 e a) * wb (ix2 a k)))
        + (∑ a : Fin 32, ea (ix2 e a) * wc (ix2 a k))) + b1 (ix2 (0 : Fin 1) k)) zeroE

/-- The edge layer: every row's message. -/
def edgeLayer {R : Nat} (xr xc : Mat R 128) (ea : Mat R 32) (wa wb : Mat 128 128) (wc : Mat 32 128) (b1 : Mat 1 128)
    (w2 : Mat 128 128) (b2 : Mat 1 128) : Mat R 128 :=
  fun i => (∑ k : Fin 128, edgeHidden xr xc ea wa wb wc b1 (i 0 : Fin R) k * w2 (ix2 k (i 1 : Fin 128)))
    + b2 (ix2 (0 : Fin 1) (i 1 : Fin 128))

/-- Hidden unit k of the node layer on row n. -/
def nodeHidden {R : Nat} (x ag : Mat R 128) (wa wb : Mat 128 128) (b1 : Mat 1 128) (n : Fin R) (k : Fin 128) : EReal :=
  max (((∑ a : Fin 128, x (ix2 n a) * wa (ix2 a k)) + (∑ a : Fin 128, ag (ix2 n a) * wb (ix2 a k)))
        + b1 (ix2 (0 : Fin 1) k)) zeroE

/-- The node layer: every row's update. -/
def nodeLayer {R : Nat} (x ag : Mat R 128) (wa wb : Mat 128 128) (b1 : Mat 1 128) (w2 : Mat 128 128) (b2 : Mat 1 128) :
    Mat R 128 :=
  fun i => (∑ k : Fin 128, nodeHidden x ag wa wb b1 (i 0 : Fin R) k * w2 (ix2 k (i 1 : Fin 128)))
    + b2 (ix2 (0 : Fin 1) (i 1 : Fin 128))

/-! ## A sum over a joined axis is the sum of the sums over its parts -/

/-- Two parts. -/
theorem sum_join2 {M : Type} [AddCommMonoid M] (p q : Nat) (f : Fin (p + q) → M) :
    (∑ a : Fin (p + q), f a) = (∑ a : Fin p, f (Fin.castAdd q a)) + ∑ a : Fin q, f (Fin.natAdd p a) :=
  Fin.sum_univ_add f

/-- Three parts. -/
theorem sum_join3 {M : Type} [AddCommMonoid M] (p q r : Nat) (f : Fin (p + q + r) → M) :
    (∑ a : Fin (p + q + r), f a)
      = ((∑ a : Fin p, f (Fin.castAdd r (Fin.castAdd q a))) + ∑ a : Fin q, f (Fin.castAdd r (Fin.natAdd p a)))
        + ∑ a : Fin r, f (Fin.natAdd (p + q) a) := by
  rw [Fin.sum_univ_add f, Fin.sum_univ_add (fun a => f (Fin.castAdd r a))]

end Cert.Gnn

end
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.EdgeBlock.lean ====
/- One grid point of the edge region: what the body leaves in its output block is the edge layer of the point's
   input blocks (5000 rows at a time). -/
import proofs.«174349_j85993835200698_1_alg».proof.Proof.Gen.KernelIdeal.Frame
import proofs.«174349_j85993835200698_1_alg».proof.Proof.Spec
import proofs.«174349_j85993835200698_1_alg».proof.Proof.LibDotPlain
import Idealize.ShloMosaic.Lib.Pipeline.Value
import Idealize.ShloMosaic.Lib.ValueLayout

noncomputable section

namespace Cert.KernelIdeal.EdgeBlock

open Idealize.ShloMosaic Idealize.ShloMosaic.TcCoe Idealize.SL.Sem Idealize.ShloMosaic.ValueIdx
open Cert.KernelIdeal Cert.KernelIdeal.Gen Cert.Gnn
open scoped BigOperators

/-- A hidden unit of the body at row p, column k: the three products summed, the bias row added, the rectifier
    applied; the narrowing to the half format is the identity over the extended reals. -/
theorem hidden_apply (x0 x1 : Vec Ideal S5000x128 .bf16) (x2 : Vec Ideal S5000x32 .bf16) (x3 x4 : Vec Ideal S128x128 .bf16)
    (x5 : Vec Ideal S32x128 .bf16) (x6 : Vec Ideal S1x128 .f32) (p : Fin 5000) (k : Fin 128) :
    (truncf (F := Ideal) .bf16
          (maximumf
            (addf
              (addf
                (addf
                  (matmul (φ₁ := .bf16) (φ₂ := .bf16) dot_S5000x128_S128x128_S5000x128_1_0_0_1_n_n none x0 x3 (constant S5000x128 .f32 0x00000000#32))
                  (matmul (φ₁ := .bf16) (φ₂ := .bf16) dot_S5000x128_S128x128_S5000x128_1_0_0_1_n_n none x1 x4 (constant S5000x128 .f32 0x00000000#32)))
                (matmul (φ₁ := .bf16) (φ₂ := .bf16) dot_S5000x32_S32x128_S5000x128_1_0_0_1_n_n none x2 x5 (constant S5000x128 .f32 0x00000000#32)))
              (broadcastTo S5000x128 x6 broadcasts_S1x128_S5000x128))
            (broadcast S5000x128 (Scalar.ofBits .f32 0x00000000#32)))
          bitsLt_bf16_f32) (ix2 p k) = edgeHidden x0 x1 x2 x3 x4 x5 x6 p k := by
  rw [truncf_apply, maximumf_apply, addf_apply, addf_apply, addf_apply, broadcastTo_1b_ab_apply, broadcast_apply]
  unfold Idealize.ShloMosaic.matmul
  rw [Cert.DotPlain.matmul_zero_rows_cols dot_S5000x128_S128x128_S5000x128_1_0_0_1_n_n rfl rfl rfl rfl rfl rfl none x0 x3 p k,
    Cert.DotPlain.matmul_zero_rows_cols dot_S5000x128_S128x128_S5000x128_1_0_0_1_n_n rfl rfl rfl rfl rfl rfl none x1 x4 p k,
    Cert.DotPlain.matmul_zero_rows_cols dot_S5000x32_S32x128_S5000x128_1_0_0_1_n_n rfl rfl rfl rfl rfl rfl none x2 x5 p k]
  rfl

/-- The block a grid point leaves is the edge layer of its input blocks. -/
theorem edge_block (x0 x1 : Vec Ideal S5000x128 .bf16) (x2 : Vec Ideal S5000x32 .bf16) (x3 x4 : Vec Ideal S128x128 .bf16)
    (x5 : Vec Ideal S32x128 .bf16) (x6 : Vec Ideal S1x128 .f32) (x7 : Vec Ideal S128x128 .bf16) (x8 : Vec Ideal S1x128 .f32) :
    out0_9 (F := Ideal) x0 x1 x2 x3 x4 x5 x6 x7 x8 = edgeLayer (R := 5000) x0 x1 x2 x3 x4 x5 x6 x7 x8 := by
  have hz : (![0, 0] : Fin 2 → Nat) = fun _ => 0 := funext fun a => by fin_cases a <;> rfl
  -- the one store covers the whole block, and every load reads a whole block: the block left is the stored value
  unfold out0_9
  rw [View.canon_unit_zero hz]
  simp only [View.ld_unit_zero (S := S5000x128) hz, View.ld_unit_zero (S := S5000x32) hz, View.ld_unit_zero (S := S128x128) hz, View.ld_unit_zero (S := S32x128) hz, View.ld_unit_zero (S := S1x128) hz]
  -- read the stored value at row p, column q
  funext j
  obtain ⟨p, q, rfl⟩ : ∃ (p : Fin 5000) (q : Fin 128), j = ix2 p q := ⟨j 0, j 1, eq_ix2 j⟩
  unfold k0_pay1
  simp only [shapeCast_self]
  rw [addf_apply, broadcastTo_1b_ab_apply]
  -- the outer product is the sum over the hidden units, each hidden unit the specification's
  refine (congrArg (· + x8 (ix2 (0 : Fin 1) q)) (Cert.DotPlain.matmul_zero_rows_cols dot_S5000x128_S128x128_S5000x128_1_0_0_1_n_n rfl rfl rfl rfl rfl rfl none _ x7 p q)).trans ?_
  refine (congrArg (· + x8 (ix2 (0 : Fin 1) q)) (Finset.sum_congr rfl fun k _ => congrArg (· * x7 (ix2 k q)) (hidden_apply x0 x1 x2 x3 x4 x5 x6 p k))).trans ?_
  rfl

end Cert.KernelIdeal.EdgeBlock

end
-- ==== Proof.EdgeArray.lean ====
/- The edge region's output array after its run: the 120 blocks of 5000 rows tile the 600000 rows, block t holds the
   edge layer of the operands' blocks t, and the layer acts row by row, so the whole array is the edge layer of the
   whole operand arrays as the region is entered with them. -/
import proofs.«174349_j85993835200698_1_alg».proof.Proof.Gen.KernelIdeal.Frame
import proofs.«174349_j85993835200698_1_alg».proof.Proof.Spec
import proofs.«174349_j85993835200698_1_alg».proof.Proof.EdgeBlock
import Idealize.ShloMosaic.Lib.Pipeline.Value

noncomputable section

namespace Cert.KernelIdeal.EdgeArray

open Idealize.ShloMosaic Idealize.ShloMosaic.TcCoe Idealize.SL.Sem Idealize.ShloMosaic.ValueIdx
open Cert.KernelIdeal Cert.KernelIdeal.Gen Cert.Gnn
open scoped BigOperators

variable (V : (c : Dev nD) → (b : Ref sig .tc) → Buf (Elt Ideal) ((c : Thread nD τ).loc b))

/-! ## The layer is row-wise -/

/-- The edge layer reads its three row operands in one row only: operands that agree on a row (of whatever two
    arrays, of whatever heights) give, with the same weights, the same message in that row. -/
theorem edgeLayer_row {R R' : Nat} (xr xc : Mat R 128) (ea : Mat R 32) (xr' xc' : Mat R' 128) (ea' : Mat R' 32)
    (wa wb : Mat 128 128) (wc : Mat 32 128) (b1 : Mat 1 128) (w2 : Mat 128 128) (b2 : Mat 1 128)
    (e : Fin R) (e' : Fin R') (k : Fin 128)
    (h0 : ∀ a, xr (ix2 e a) = xr' (ix2 e' a)) (h1 : ∀ a, xc (ix2 e a) = xc' (ix2 e' a))
    (h2 : ∀ a, ea (ix2 e a) = ea' (ix2 e' a)) :
    edgeLayer xr xc ea wa wb wc b1 w2 b2 (ix2 e k) = edgeLayer xr' xc' ea' wa wb wc b1 w2 b2 (ix2 e' k) := by
  unfold edgeLayer edgeHidden
  show (∑ k' : Fin 128, max ((((∑ a : Fin 128, xr (ix2 e a) * wa (ix2 a k')) + (∑ a : Fin 128, xc (ix2 e a) * wb (ix2 a k')))
        + (∑ a : Fin 32, ea (ix2 e a) * wc (ix2 a k'))) + b1 (ix2 (0 : Fin 1) k')) zeroE * w2 (ix2 k' k)) + b2 (ix2 (0 : Fin 1) k)
      = (∑ k' : Fin 128, max ((((∑ a : Fin 128, xr' (ix2 e' a) * wa (ix2 a k')) + (∑ a : Fin 128, xc' (ix2 e' a) * wb (ix2 a k')))
        + (∑ a : Fin 32, ea' (ix2 e' a) * wc (ix2 a k'))) + b1 (ix2 (0 : Fin 1) k')) zeroE * w2 (ix2 k' k)) + b2 (ix2 (0 : Fin 1) k)
  simp only [h0, h1, h2]

/-! ## Where each window's block sits at a point -/

/-- At point t the row windows (the three row operands and the output) sit at block row t, block column 0; the
    weight and bias windows at block (0, 0). -/
theorem idx_facts : ∀ t : Fin cfg0.N,
    win0_9.index t (0 : Fin 2) = t.val ∧ win0_9.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Row p of block t is row 5000 t + p of the array. -/
theorem row_lt (t : Fin 120) (p : Fin 5000) : t.val * 5000 + p.val < 600000 := by omega

/-- The array row of row p of block t. -/
abbrev rowOf (t : Fin cfg0.N) (p : Fin 5000) : Fin 600000 := ⟨t.val * 5000 + p.val, row_lt t p⟩

/-! ## Each window's block, read where the array holds it -/

/-- The first row operand's block t at (p, a) is the array at (5000 t + p, a). -/
theorem read0 (c : Dev nD) (t : Fin cfg0.N) (p : Fin 5000) (a : Fin 128) :
    iblk0 (F := Ideal) V c 0 t (ix2 p a) = (V c main_v11 : S600000x128.Idx → EReal) (ix2 (rowOf t p) a) := by
  obtain ⟨-, -, e0, e1, -⟩ := idx_facts t
  show (V c main_v11 : S600000x128.Idx → EReal) (((cfg0.win 0).blk t).view.emb (ix2 p a)) = _
  refine congrArg _ (funext fun d => Fin.ext ?_)
  match d with
  | ⟨0, _⟩ => show win0_0.index t (0 : Fin 2) * 5000 + 1 * p.val = t.val * 5000 + p.val; rw [e0]; omega
  | ⟨1, _⟩ => show win0_0.index t (1 : Fin 2) * 128 + 1 * a.val = a.val; rw [e1]; omega

/-- The second row operand's block t at (p, a) is the array at (5000 t + p, a). -/
theorem read1 (c : Dev nD) (t : Fin cfg0.N) (p : Fin 5000) (a : Fin 128) :
    iblk0 (F := Ideal) V c 1 t (ix2 p a) = (V c main_v18 : S600000x128.Idx → EReal) (ix2 (rowOf t p) a) := by
  obtain ⟨-, -, -, -, e0, e1, -⟩ := idx_facts t
  show (V c main_v18 : S600000x128.Idx → EReal) (((cfg0.win 1).blk t).view.emb (ix2 p a)) = _
  refine congrArg _ (funext fun d => Fin.ext ?_)
  match d with
  | ⟨0, _⟩ => show win0_1.index t (0 : Fin 2) * 5000 + 1 * p.val = t.val * 5000 + p.val; rw [e0]; omega
  | ⟨1, _⟩ => show win0_1.index t (1 : Fin 2) * 128 + 1 * a.val = a.val; rw [e1]; omega

/-- The third row operand's block t at (p, a) is the array at (5000 t + p, a). -/
theorem read2 (c : Dev nD) (t : Fin cfg0.N) (p : Fin 5000) (a : Fin 32) :
    iblk0 (F := Ideal) V c 2 t (ix2 p a) = (V c main_v19 : S600000x32.Idx → EReal) (ix2 (rowOf t p) a) := by
  obtain ⟨-, -, -, -, -, -, e0, e1, -⟩ := idx_facts t
  show (V c main_v19 : S600000x32.Idx → EReal) (((cfg0.win 2).blk t).view.emb (ix2 p a)) = _
  refine congrArg _ (funext fun d => Fin.ext ?_)
  match d with
  | ⟨0, _⟩ => show win0_2.index t (0 : Fin 2) * 5000 + 1 * p.val = t.val * 5000 + p.val; rw [e0]; omega
  | ⟨1, _⟩ => show win0_2.index t (1 : Fin 2) * 32 + 1 * a.val = a.val; rw [e1]; omega

/-- A weight or bias window's block, at every point, is its whole array. -/
theorem read3 (c : Dev nD) (t : Fin cfg0.N) :
    iblk0 (F := Ideal) V c 3 t = (V c main_v21 : S128x128.Idx → EReal) := by
  obtain ⟨-, -, -, -, -, -, -, -, e0, e1, -⟩ := idx_facts t
  funext j
  show (V c main_v21 : S128x128.Idx → EReal) (((cfg0.win 3).blk t).view.emb j) = _
  refine congrArg _ (funext fun d => Fin.ext ?_)
  match d with
  | ⟨0, _⟩ => show win0_3.index t (0 : Fin 2) * 128 + 1 * (j 0).val = (j 0).val; rw [e0]; omega
  | ⟨1, _⟩ => show win0_3.index t (1 : Fin 2) * 128 + 1 * (j 1).val = (j 1).val; rw [e1]; omega

theorem read4 (c : Dev nD) (t : Fin cfg0.N) :
    iblk0 (F := Ideal) V c 4 t = (V c main_v23 : S128x128.Idx → EReal) := by
  obtain ⟨-, -, -, -, -, -, -, -, -, -, e0, e1, -⟩ := idx_facts t
  funext j
  show (V c main_v23 : S128x128.Idx → EReal) (((cfg0.win 4).blk t).view.emb j) = _
  refine congrArg _ (funext fun d => Fin.ext ?_)
  match d with
  | ⟨0, _⟩ => show win0_4.index t (0 : Fin 2) * 128 + 1 * (j 0).val = (j 0).val; rw [e0]; omega
  | ⟨1, _⟩ => show win0_4.index t (1 : Fin 2) * 128 + 1 * (j 1).val = (j 1).val; rw [e1]; omega

theorem read5 (c : Dev nD) (t : Fin cfg0.N) :
    iblk0 (F := Ideal) V c 5 t = (V c main_v25 : S32x128.Idx → EReal) := by
  obtain ⟨-, -, -, -, -, -, -, -, -, -, -, -, e0, e1, -⟩ := idx_facts t
  funext j
  show (V c main_v25 : S32x128.Idx → EReal) (((cfg0.win 5).blk t).view.emb j) = _
  refine congrArg _ (funext fun d => Fin.ext ?_)
  match d with
  | ⟨0, _⟩ => show win0_5.index t (0 : Fin 2) * 32 + 1 * (j 0).val = (j 0).val; rw [e0]; omega
  | ⟨1, _⟩ => show win0_5.index t (1 : Fin 2) * 128 + 1 * (j 1).val = (j 1).val; rw [e1]; omega

theorem read6 (c : Dev nD) (t : Fin cfg0.N) :
    iblk0 (F := Ideal) V c 6 t = (V c main_v27 : S1x128.Idx → EReal) := by
  obtain ⟨-, -, -, -, -, -, -, -, -, -, -, -, -, -, e0, e1, -⟩ := idx_facts t
  funext j
  show (V c main_v27 : S1x128.Idx → EReal) (((cfg0.win 6).blk t).view.emb j) = _
  refine congrArg _ (funext fun d => Fin.ext ?_)
  match d with
  | ⟨0, _⟩ => show win0_6.index t (0 : Fin 2) * 1 + 1 * (j 0).val = (j 0).val; rw [e0]; omega
  | ⟨1, _⟩ => show win0_6.index t (1 : Fin 2) * 128 + 1 * (j 1).val = (j 1).val; rw [e1]; omega

theorem read7 (c : Dev nD) (t : Fin cfg0.N) :
    iblk0 (F := Ideal) V c 7 t = (V c main_v26 : S128x128.Idx → EReal) := by
  obtain ⟨-, -, -, -, -, -, -, -, -, -, -, -, -, -, -, -, e0, e1, -⟩ := idx_facts t
  funext j
  show (V c main_v26 : S128x128.Idx → EReal) (((cfg0.win 7).blk t).view.emb j) = _
  refine congrArg _ (funext fun d => Fin.ext ?_)
  match d with
  | ⟨0, _⟩ => show win0_7.index t (0 : Fin 2) * 128 + 1 * (j 0).val = (j 0).val; rw [e0]; omega
  | ⟨1, _⟩ => show win0_7.index t (1 : Fin 2) * 128 + 1 * (j 1).val = (j 1).val; rw [e1]; omega

theorem read8 (c : Dev nD) (t : Fin cfg0.N) :
    iblk0 (F := Ideal) V c 8 t = (V c main_v28 : S1x128.Idx → EReal) := by
  obtain ⟨-, -, -, -, -, -, -, -, -, -, -, -, -, -, -, -, -, -, e0, e1⟩ := idx_facts t
  funext j
  show (V c main_v28 : S1x128.Idx → EReal) (((cfg0.win 8).blk t).view.emb j) = _
  refine congrArg _ (funext fun d => Fin.ext ?_)
  match d with
  | ⟨0, _⟩ => show win0_8.index t (0 : Fin 2) * 1 + 1 * (j 0).val = (j 0).val; rw [e0]; omega
  | ⟨1, _⟩ => show win0_8.index t (1 : Fin 2) * 128 + 1 * (j 1).val = (j 1).val; rw [e1]; omega

/-- Where the output's block t holds (p, q): the array's (5000 t + p, q). -/
theorem emb9 (t : Fin cfg0.N) (p : Fin 5000) (q : Fin 128) :
    ((cfg0.win 9).blk t).view.emb (ix2 p q) = (ix2 (rowOf t p) q : S600000x128.Idx) := by
  obtain ⟨e0, e1, -⟩ := idx_facts t
  refine funext fun d => Fin.ext ?_
  match d with
  | ⟨0, _⟩ => show win0_9.index t (0 : Fin 2) * 5000 + 1 * p.val = t.val * 5000 + p.val; rw [e0]; omega
  | ⟨1, _⟩ => show win0_9.index t (1 : Fin 2) * 128 + 1 * q.val = q.val; rw [e1]; omega

/-! ## What a point writes back -/

/-- What point t writes back is block t of the edge layer of the whole operand arrays. -/
theorem flushed_eq (c : Dev nD) (t : Fin cfg0.N) :
    (dat0 (F := Ideal) V c).flushed 9 t = ((cfg0.win 9).blk t).view.read (Elt Ideal)
      (edgeLayer (R := 600000) (V c main_v11) (V c main_v18) (V c main_v19) (V c main_v21) (V c main_v23) (V c main_v25)
          (V c main_v27) (V c main_v26) (V c main_v28)) := by
  show (cfg0.win 9).cut (grid0.coords t) ((dat0 (F := Ideal) V c).after 9 t) = _
  rw [after0_9, EdgeBlock.edge_block, read3, read4, read5, read6, read7, read8]
  refine funext fun (y : S5000x128.Idx) => ?_
  obtain ⟨p, q, rfl⟩ : ∃ (p : Fin 5000) (q : Fin 128), y = ix2 p q := ⟨y 0, y 1, eq_ix2 y⟩
  show edgeLayer (R := 5000) (iblk0 (F := Ideal) V c 0 t) (iblk0 (F := Ideal) V c 1 t) (iblk0 (F := Ideal) V c 2 t)
        (V c main_v21) (V c main_v23) (V c main_v25) (V c main_v27) (V c main_v26) (V c main_v28) (ix2 p q)
      = edgeLayer (R := 600000) (V c main_v11) (V c main_v18) (V c main_v19) (V c main_v21) (V c main_v23) (V c main_v25)
          (V c main_v27) (V c main_v26) (V c main_v28) (((cfg0.win 9).blk t).view.emb (ix2 p q))
  rw [emb9]
  exact edgeLayer_row _ _ _ _ _ _ _ _ _ _ _ _ _ _ _ (read0 V c t p) (read1 V c t p) (read2 V c t p)

/-! ## The blocks tile the array -/

/-- An index of the output array is in point t's block iff each coordinate is in the block's range on its axis. -/
theorem mem_blk (t : Fin cfg0.N) (i : S600000x128.Idx) :
    i ∈ ((cfg0.win 9).blk t).view.set ↔ ∀ a : Fin 2, win0_9.index t a * S5000x128.size a ≤ (i a).val
      ∧ (i a).val < win0_9.index t a * S5000x128.size a + S5000x128.size a := by
  show i ∈ ((View.whole main_v29).slice (win0_9.rect t)).set ↔ _
  rw [View.set_slice_whole, Rect.mem_set_unit]
  exact Iff.rfl

/-- Row r of the array is in the block of point r / 5000, and every point writes its block back. -/
theorem cover (i : S600000x128.Idx) :
    ∃ t : Fin cfg0.N, (cfg0.win 9).flush t = true ∧ i ∈ ((cfg0.win 9).blk t).view.set := by
  have hi0 : (i 0).val < 600000 := (i 0).isLt
  have hi1 : (i 1).val < 128 := (i 1).isLt
  have ht : (i 0).val / 5000 < 120 := by omega
  obtain ⟨e0, e1, -⟩ := idx_facts ⟨(i 0).val / 5000, ht⟩
  refine ⟨⟨(i 0).val / 5000, ht⟩, flush0_9 _, ?_⟩
  rw [mem_blk]
  intro a
  match a with
  | ⟨0, _⟩ =>
    show win0_9.index ⟨(i 0).val / 5000, ht⟩ (0 : Fin 2) * 5000 ≤ (i 0).val
      ∧ (i 0).val < win0_9.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_9.index ⟨(i 0).val / 5000, ht⟩ (1 : Fin 2) * 128 ≤ (i 1).val
      ∧ (i 1).val < win0_9.index ⟨(i 0).val / 5000, ht⟩ (1 : Fin 2) * 128 + 128
    rw [e1]
    omega

/-! ## The array after the run -/

theorem edge_array (c : Dev nD) :
    (dat0 (F := Ideal) V c).arrAt 9 cfg0.N
      = edgeLayer (R := 600000) (V c main_v11) (V c main_v18) (V c main_v19) (V c main_v21) (V c main_v23) (V c main_v25)
          (V c main_v27) (V c main_v26) (V c main_v28) := by
  exact (dat0 (F := Ideal) V c).arrAt_eq_of_cover 9
    (edgeLayer (R := 600000) (V c main_v11) (V c main_v18) (V c main_v19) (V c main_v21) (V c main_v23) (V c main_v25)
          (V c main_v27) (V c main_v26) (V c main_v28))
    (fun t _ => flushed_eq V c t) cover

end Cert.KernelIdeal.EdgeArray

end
-- ==== Proof.NodeBlock.lean ====
/- One grid point of the node region: what the body leaves in its output block is the node layer of the point's
   input blocks (5000 rows at a time). -/
import proofs.«174349_j85993835200698_1_alg».proof.Proof.Gen.KernelIdeal.Frame
import proofs.«174349_j85993835200698_1_alg».proof.Proof.Spec
import proofs.«174349_j85993835200698_1_alg».proof.Proof.LibDotPlain
import Idealize.ShloMosaic.Lib.Pipeline.Value
import Idealize.ShloMosaic.Lib.ValueLayout

noncomputable section

namespace Cert.KernelIdeal.NodeBlock

open Idealize.ShloMosaic Idealize.ShloMosaic.TcCoe Idealize.SL.Sem Idealize.ShloMosaic.ValueIdx
open Cert.KernelIdeal Cert.KernelIdeal.Gen Cert.Gnn
open scoped BigOperators

/-- A hidden unit of the body at row p, column k: the two products summed, the bias row added, the rectifier
    applied; the narrowing to the half format is the identity over the extended reals. -/
theorem hidden_apply (x0 x1 : Vec Ideal S5000x128 .bf16) (x2 x3 : Vec Ideal S128x128 .bf16) (x4 : Vec Ideal S1x128 .f32)
    (p : Fin 5000) (k : Fin 128) :
    (truncf (F := Ideal) .bf16
          (maximumf
            (addf
              (addf
                (matmul (φ₁ := .bf16) (φ₂ := .bf16) dot_S5000x128_S128x128_S5000x128_1_0_0_1_n_n none x0 x2 (constant S5000x128 .f32 0x00000000#32))
                (matmul (φ₁ := .bf16) (φ₂ := .bf16) dot_S5000x128_S128x128_S5000x128_1_0_0_1_n_n none x1 x3 (constant S5000x128 .f32 0x00000000#32)))
              (broadcastTo S5000x128 x4 broadcasts_S1x128_S5000x128))
            (broadcast S5000x128 (Scalar.ofBits .f32 0x00000000#32)))
          bitsLt_bf16_f32) (ix2 p k) = nodeHidden x0 x1 x2 x3 x4 p k := by
  rw [truncf_apply, maximumf_apply, addf_apply, addf_apply, broadcastTo_1b_ab_apply, broadcast_apply]
  unfold Idealize.ShloMosaic.matmul
  rw [Cert.DotPlain.matmul_zero_rows_cols dot_S5000x128_S128x128_S5000x128_1_0_0_1_n_n rfl rfl rfl rfl rfl rfl none x0 x2 p k,
    Cert.DotPlain.matmul_zero_rows_cols dot_S5000x128_S128x128_S5000x128_1_0_0_1_n_n rfl rfl rfl rfl rfl rfl none x1 x3 p k]
  rfl

/-- The block a grid point leaves is the node layer of its input blocks. -/
theorem node_block (x0 x1 : Vec Ideal S5000x128 .bf16) (x2 x3 : Vec Ideal S128x128 .bf16) (x4 : Vec Ideal S1x128 .f32)
    (x5 : Vec Ideal S128x128 .bf16) (x6 : Vec Ideal S1x128 .f32) :
    out1_7 (F := Ideal) x0 x1 x2 x3 x4 x5 x6 = nodeLayer (R := 5000) x0 x1 x2 x3 x4 x5 x6 := by
  have hz : (![0, 0] : Fin 2 → Nat) = fun _ => 0 := funext fun a => by fin_cases a <;> rfl
  -- the one store covers the whole block, and every load reads a whole block: the block left is the stored value
  unfold out1_7
  rw [View.canon_unit_zero hz]
  simp only [View.ld_unit_zero (S := S5000x128) hz, View.ld_unit_zero (S := S128x128) hz, View.ld_unit_zero (S := S1x128) hz]
  -- read the stored value at row p, column q
  funext j
  obtain ⟨p, q, rfl⟩ : ∃ (p : Fin 5000) (q : Fin 128), j = ix2 p q := ⟨j 0, j 1, eq_ix2 j⟩
  unfold k1_pay1
  simp only [shapeCast_self]
  rw [addf_apply, broadcastTo_1b_ab_apply]
  -- the outer product is the sum over the hidden units, each hidden unit the specification's
  refine (congrArg (· + x6 (ix2 (0 : Fin 1) q)) (Cert.DotPlain.matmul_zero_rows_cols dot_S5000x128_S128x128_S5000x128_1_0_0_1_n_n rfl rfl rfl rfl rfl rfl none _ x5 p q)).trans ?_
  refine (congrArg (· + x6 (ix2 (0 : Fin 1) q)) (Finset.sum_congr rfl fun k _ => congrArg (· * x5 (ix2 k q)) (hidden_apply x0 x1 x2 x3 x4 p k))).trans ?_
  rfl

end Cert.KernelIdeal.NodeBlock

end
-- ==== Proof.NodeArray.lean ====
/- The node region's output array after its run: the 10 blocks of 5000 rows tile the 50000 rows, block t holds the
   node layer of the operands' blocks t, and the layer acts row by row, so the whole array is the node layer of the
   whole operand arrays as the region is entered with them. -/
import proofs.«174349_j85993835200698_1_alg».proof.Proof.Gen.KernelIdeal.Frame
import proofs.«174349_j85993835200698_1_alg».proof.Proof.Spec
import proofs.«174349_j85993835200698_1_alg».proof.Proof.NodeBlock
import Idealize.ShloMosaic.Lib.Pipeline.Value

noncomputable section

namespace Cert.KernelIdeal.NodeArray

open Idealize.ShloMosaic Idealize.ShloMosaic.TcCoe Idealize.SL.Sem Idealize.ShloMosaic.ValueIdx
open Cert.KernelIdeal Cert.KernelIdeal.Gen Cert.Gnn
open scoped BigOperators

variable (V : (c : Dev nD) → (b : Ref sig .tc) → Buf (Elt Ideal) ((c : Thread nD τ).loc b))

/-! ## The layer is row-wise -/

/-- The node layer reads its two row operands in one row only: operands that agree on a row (of whatever two
    arrays, of whatever heights) give, with the same weights, the same update in that row. -/
theorem nodeLayer_row {R R' : Nat} (x ag : Mat R 128) (x' ag' : Mat R' 128)
    (wa wb : Mat 128 128) (b1 : Mat 1 128) (w2 : Mat 128 128) (b2 : Mat 1 128)
    (n : Fin R) (n' : Fin R') (k : Fin 128)
    (h0 : ∀ a, x (ix2 n a) = x' (ix2 n' a)) (h1 : ∀ a, ag (ix2 n a) = ag' (ix2 n' a)) :
    nodeLayer x ag wa wb b1 w2 b2 (ix2 n k) = nodeLayer x' ag' wa wb b1 w2 b2 (ix2 n' k) := by
  unfold nodeLayer nodeHidden
  show (∑ k' : Fin 128, max (((∑ a : Fin 128, x (ix2 n a) * wa (ix2 a k')) + (∑ a : Fin 128, ag (ix2 n a) * wb (ix2 a k')))
        + b1 (ix2 (0 : Fin 1) k')) zeroE * w2 (ix2 k' k)) + b2 (ix2 (0 : Fin 1) k)
      = (∑ k' : Fin 128, max (((∑ a : Fin 128, x' (ix2 n' a) * wa (ix2 a k')) + (∑ a : Fin 128, ag' (ix2 n' a) * wb (ix2 a k')))
        + b1 (ix2 (0 : Fin 1) k')) zeroE * w2 (ix2 k' k)) + b2 (ix2 (0 : Fin 1) k)
  simp only [h0, h1]

/-! ## Where each window's block sits at a point -/

/-- At point t the row windows (the two row operands and the output) sit at block row t, block column 0; the
    weight and bias windows at block (0, 0). -/
theorem idx_facts : ∀ t : Fin cfg1.N,
    win1_7.index t (0 : Fin 2) = t.val ∧ win1_7.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Row p of block t is row 5000 t + p of the array. -/
theorem row_lt (t : Fin 10) (p : Fin 5000) : t.val * 5000 + p.val < 50000 := by omega

/-- The array row of row p of block t. -/
abbrev rowOf (t : Fin cfg1.N) (p : Fin 5000) : Fin 50000 := ⟨t.val * 5000 + p.val, row_lt t p⟩

/-! ## Each window's block, read where the array holds it -/

/-- The first row operand's block t at (p, a) is the array at (5000 t + p, a). -/
theorem read0 (c : Dev nD) (t : Fin cfg1.N) (p : Fin 5000) (a : Fin 128) :
    iblk1 (F := Ideal) V c 0 t (ix2 p a) = (V c main_v4 : S50000x128.Idx → EReal) (ix2 (rowOf t p) a) := by
  obtain ⟨-, -, e0, e1, -⟩ := idx_facts t
  show (V c main_v4 : S50000x128.Idx → EReal) (((cfg1.win 0).blk t).view.emb (ix2 p a)) = _
  refine congrArg _ (funext fun d => Fin.ext ?_)
  match d with
  | ⟨0, _⟩ => show win1_0.index t (0 : Fin 2) * 5000 + 1 * p.val = t.val * 5000 + p.val; rw [e0]; omega
  | ⟨1, _⟩ => show win1_0.index t (1 : Fin 2) * 128 + 1 * a.val = a.val; rw [e1]; omega

/-- The second row operand's block t at (p, a) is the array at (5000 t + p, a). -/
theorem read1 (c : Dev nD) (t : Fin cfg1.N) (p : Fin 5000) (a : Fin 128) :
    iblk1 (F := Ideal) V c 1 t (ix2 p a) = (V c main_v33 : S50000x128.Idx → EReal) (ix2 (rowOf t p) a) := by
  obtain ⟨-, -, -, -, e0, e1, -⟩ := idx_facts t
  show (V c main_v33 : S50000x128.Idx → EReal) (((cfg1.win 1).blk t).view.emb (ix2 p a)) = _
  refine congrArg _ (funext fun d => Fin.ext ?_)
  match d with
  | ⟨0, _⟩ => show win1_1.index t (0 : Fin 2) * 5000 + 1 * p.val = t.val * 5000 + p.val; rw [e0]; omega
  | ⟨1, _⟩ => show win1_1.index t (1 : Fin 2) * 128 + 1 * a.val = a.val; rw [e1]; omega

/-- A weight or bias window's block, at every point, is its whole array. -/
theorem read2 (c : Dev nD) (t : Fin cfg1.N) :
    iblk1 (F := Ideal) V c 2 t = (V c main_v35 : S128x128.Idx → EReal) := by
  obtain ⟨-, -, -, -, -, -, e0, e1, -⟩ := idx_facts t
  funext j
  show (V c main_v35 : S128x128.Idx → EReal) (((cfg1.win 2).blk t).view.emb j) = _
  refine congrArg _ (funext fun d => Fin.ext ?_)
  match d with
  | ⟨0, _⟩ => show win1_2.index t (0 : Fin 2) * 128 + 1 * (j 0).val = (j 0).val; rw [e0]; omega
  | ⟨1, _⟩ => show win1_2.index t (1 : Fin 2) * 128 + 1 * (j 1).val = (j 1).val; rw [e1]; omega

theorem read3 (c : Dev nD) (t : Fin cfg1.N) :
    iblk1 (F := Ideal) V c 3 t = (V c main_v37 : S128x128.Idx → EReal) := by
  obtain ⟨-, -, -, -, -, -, -, -, e0, e1, -⟩ := idx_facts t
  funext j
  show (V c main_v37 : S128x128.Idx → EReal) (((cfg1.win 3).blk t).view.emb j) = _
  refine congrArg _ (funext fun d => Fin.ext ?_)
  match d with
  | ⟨0, _⟩ => show win1_3.index t (0 : Fin 2) * 128 + 1 * (j 0).val = (j 0).val; rw [e0]; omega
  | ⟨1, _⟩ => show win1_3.index t (1 : Fin 2) * 128 + 1 * (j 1).val = (j 1).val; rw [e1]; omega

theorem read4 (c : Dev nD) (t : Fin cfg1.N) :
    iblk1 (F := Ideal) V c 4 t = (V c main_v39 : S1x128.Idx → EReal) := by
  obtain ⟨-, -, -, -, -, -, -, -, -, -, e0, e1, -⟩ := idx_facts t
  funext j
  show (V c main_v39 : S1x128.Idx → EReal) (((cfg1.win 4).blk t).view.emb j) = _
  refine congrArg _ (funext fun d => Fin.ext ?_)
  match d with
  | ⟨0, _⟩ => show win1_4.index t (0 : Fin 2) * 1 + 1 * (j 0).val = (j 0).val; rw [e0]; omega
  | ⟨1, _⟩ => show win1_4.index t (1 : Fin 2) * 128 + 1 * (j 1).val = (j 1).val; rw [e1]; omega

theorem read5 (c : Dev nD) (t : Fin cfg1.N) :
    iblk1 (F := Ideal) V c 5 t = (V c main_v38 : S128x128.Idx → EReal) := by
  obtain ⟨-, -, -, -, -, -, -, -, -, -, -, -, e0, e1, -⟩ := idx_facts t
  funext j
  show (V c main_v38 : S128x128.Idx → EReal) (((cfg1.win 5).blk t).view.emb j) = _
  refine congrArg _ (funext fun d => Fin.ext ?_)
  match d with
  | ⟨0, _⟩ => show win1_5.index t (0 : Fin 2) * 128 + 1 * (j 0).val = (j 0).val; rw [e0]; omega
  | ⟨1, _⟩ => show win1_5.index t (1 : Fin 2) * 128 + 1 * (j 1).val = (j 1).val; rw [e1]; omega

theorem read6 (c : Dev nD) (t : Fin cfg1.N) :
    iblk1 (F := Ideal) V c 6 t = (V c main_v40 : S1x128.Idx → EReal) := by
  obtain ⟨-, -, -, -, -, -, -, -, -, -, -, -, -, -, e0, e1⟩ := idx_facts t
  funext j
  show (V c main_v40 : S1x128.Idx → EReal) (((cfg1.win 6).blk t).view.emb j) = _
  refine congrArg _ (funext fun d => Fin.ext ?_)
  match d with
  | ⟨0, _⟩ => show win1_6.index t (0 : Fin 2) * 1 + 1 * (j 0).val = (j 0).val; rw [e0]; omega
  | ⟨1, _⟩ => show win1_6.index t (1 : Fin 2) * 128 + 1 * (j 1).val = (j 1).val; rw [e1]; omega

/-- Where the output's block t holds (p, q): the array's (5000 t + p, q). -/
theorem emb7 (t : Fin cfg1.N) (p : Fin 5000) (q : Fin 128) :
    ((cfg1.win 7).blk t).view.emb (ix2 p q) = (ix2 (rowOf t p) q : S50000x128.Idx) := by
  obtain ⟨e0, e1, -⟩ := idx_facts t
  refine funext fun d => Fin.ext ?_
  match d with
  | ⟨0, _⟩ => show win1_7.index t (0 : Fin 2) * 5000 + 1 * p.val = t.val * 5000 + p.val; rw [e0]; omega
  | ⟨1, _⟩ => show win1_7.index t (1 : Fin 2) * 128 + 1 * q.val = q.val; rw [e1]; omega

/-! ## What a point writes back -/

/-- What point t writes back is block t of the node layer of the whole operand arrays. -/
theorem flushed_eq (c : Dev nD) (t : Fin cfg1.N) :
    (dat1 (F := Ideal) V c).flushed 7 t = ((cfg1.win 7).blk t).view.read (Elt Ideal)
      (nodeLayer (R := 50000) (V c main_v4) (V c main_v33) (V c main_v35) (V c main_v37) (V c main_v39) (V c main_v38)
          (V c main_v40)) := by
  show (cfg1.win 7).cut (grid1.coords t) ((dat1 (F := Ideal) V c).after 7 t) = _
  rw [after1_7, NodeBlock.node_block, read2, read3, read4, read5, read6]
  refine funext fun (y : S5000x128.Idx) => ?_
  obtain ⟨p, q, rfl⟩ : ∃ (p : Fin 5000) (q : Fin 128), y = ix2 p q := ⟨y 0, y 1, eq_ix2 y⟩
  show nodeLayer (R := 5000) (iblk1 (F := Ideal) V c 0 t) (iblk1 (F := Ideal) V c 1 t)
        (V c main_v35) (V c main_v37) (V c main_v39) (V c main_v38) (V c main_v40) (ix2 p q)
      = nodeLayer (R := 50000) (V c main_v4) (V c main_v33) (V c main_v35) (V c main_v37) (V c main_v39) (V c main_v38)
          (V c main_v40) (((cfg1.win 7).blk t).view.emb (ix2 p q))
  rw [emb7]
  exact nodeLayer_row _ _ _ _ _ _ _ _ _ _ _ _ (read0 V c t p) (read1 V c t p)

/-! ## The blocks tile the array -/

/-- An index of the output array is in point t's block iff each coordinate is in the block's range on its axis. -/
theorem mem_blk (t : Fin cfg1.N) (i : S50000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v41).slice (win1_7.rect t)).set ↔ _
  rw [View.set_slice_whole, Rect.mem_set_unit]
  exact Iff.rfl

/-- Row r of the array is in the block of point r / 5000, and every point writes its block back. -/
theorem cover (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have ht : (i 0).val / 5000 < 10 := by omega
  obtain ⟨e0, e1, -⟩ := idx_facts ⟨(i 0).val / 5000, ht⟩
  refine ⟨⟨(i 0).val / 5000, ht⟩, flush1_7 _, ?_⟩
  rw [mem_blk]
  intro a
  match a with
  | ⟨0, _⟩ =>
    show win1_7.index ⟨(i 0).val / 5000, ht⟩ (0 : Fin 2) * 5000 ≤ (i 0).val
      ∧ (i 0).val < win1_7.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win1_7.index ⟨(i 0).val / 5000, ht⟩ (1 : Fin 2) * 128 ≤ (i 1).val
      ∧ (i 1).val < win1_7.index ⟨(i 0).val / 5000, ht⟩ (1 : Fin 2) * 128 + 128
    rw [e1]
    omega

/-! ## The array after the run -/

theorem node_array (c : Dev nD) :
    (dat1 (F := Ideal) V c).arrAt 7 cfg1.N
      = nodeLayer (R := 50000) (V c main_v4) (V c main_v33) (V c main_v35) (V c main_v37) (V c main_v39) (V c main_v38)
          (V c main_v40) := by
  exact (dat1 (F := Ideal) V c).arrAt_eq_of_cover 7
    (nodeLayer (R := 50000) (V c main_v4) (V c main_v33) (V c main_v35) (V c main_v37) (V c main_v39) (V c main_v38)
          (V c main_v40))
    (fun t _ => flushed_eq V c t) cover

end Cert.KernelIdeal.NodeArray

end
-- ==== Proof.KernelValue.lean ====
/- What the idealized kernel program computes, as one function of its eleven argument arrays.

   The program is four segments. Host operations cut the edge list into its two index rows, wrap negative indices,
   gather the two endpoint rows of every edge, and cut the first edge weight into its three row ranges; the edge region
   computes every edge's message (the edge layer, 120 blocks of 5000 edges); host operations add each message into its
   target node's row of a zero array and cut the first node weight into its two row ranges; the node region computes
   every node's update (the node layer, 10 blocks of 5000 nodes). Read backwards from the result's buffer at the last
   boundary, each boundary's contents are the previous one's with one of these steps applied, down to the launch memory. -/
import proofs.«174349_j85993835200698_1_alg».proof.Proof.Gen.KernelIdeal.Frame
import proofs.«174349_j85993835200698_1_alg».proof.Proof.Spec
import proofs.«174349_j85993835200698_1_alg».proof.Proof.EdgeArray
import proofs.«174349_j85993835200698_1_alg».proof.Proof.NodeArray
import Idealize.ShloMosaic.Lib.StableHlo.Run

set_option maxRecDepth 16384

noncomputable section

namespace Cert.KernelIdeal.Whole

open Idealize.ShloMosaic Idealize.ShloMosaic.TcCoe Idealize.SL.Sem Idealize.ShloMosaic.ValueIdx Idealize.ShloMosaic.StableHlo
open Cert.KernelIdeal Cert.KernelIdeal.Gen Cert.Gnn

/-! ## The program as a function of the argument arrays -/

/-- The edges' source indices: row 0 of the edge list, as a flat vector. -/
def srcIx (x1 : IVec S2x600000 32) : IVec S600000 32 :=
  shapeCast S600000 (extractStridedSlice S1x600000 ![0, 0] x1 slices_S2x600000_S1x600000_0_0) shapeCasts_S1x600000_S600000

/-- The edges' target indices: row 1 of the edge list. -/
def dstIx (x1 : IVec S2x600000 32) : IVec S600000 32 :=
  shapeCast S600000 (extractStridedSlice S1x600000 ![1, 0] x1 slices_S2x600000_S1x600000_1_0) shapeCasts_S1x600000_S600000

/-- An index vector with its negative entries counted back from the number of nodes, laid out as a column of
    start indices for a row gather. -/
def wrapCol (r : IVec S600000 32) : IVec S600000x1 32 :=
  broadcastInDim S600000x1 ![0] bcast_S600000_S600000x1_0
    (select (cmpi .slt r (broadcastInDim S600000 ![] bcast_S_S600000 (constantI S_ 32 0#32)))
      (addi r (broadcastInDim S600000 ![] bcast_S_S600000 (constantI S_ 32 50000#32))) r)

/-- Every edge's message: the edge layer of the two gathered endpoint rows, the edge features, the three row ranges
    of the first weight, and the second weight (the program's narrowing format changes are the identity on extended reals and are not written). -/
def messages (x0 : FVec Ideal S50000x128 .f32) (x1 : IVec S2x600000 32) (x2 : FVec Ideal S600000x32 .f32)
    (x3 : FVec Ideal S288x128 .f32) (x4 : FVec Ideal S128 .f32) (x5 : FVec Ideal S128x128 .f32) (x6 : FVec Ideal S128 .f32) :
    Mat 600000 128 :=
  edgeLayer (R := 600000)
    (Host.gather gather_S50000x128_S600000x1_S600000x128_1_0_n_n_0_1_1128 x0 (wrapCol (srcIx x1)))
    (Host.gather gather_S50000x128_S600000x1_S600000x128_1_0_n_n_0_1_1128 x0 (wrapCol (dstIx x1)))
    x2
    (extractStridedSlice S128x128 ![0, 0] x3 slices_S288x128_S128x128_0_0)
    (extractStridedSlice S128x128 ![128, 0] x3 slices_S288x128_S128x128_128_0)
    (extractStridedSlice S32x128 ![256, 0] x3 slices_S288x128_S32x128_256_0)
    (shapeCast S1x128 x4 shapeCasts_S128_S1x128)
    x5
    (shapeCast S1x128 x6 shapeCasts_S128_S1x128)

/-- Every node's aggregated messages: each edge's message added into its target node's row of a zero array. -/
def aggregated (x0 : FVec Ideal S50000x128 .f32) (x1 : IVec S2x600000 32) (x2 : FVec Ideal S600000x32 .f32)
    (x3 : FVec Ideal S288x128 .f32) (x4 : FVec Ideal S128 .f32) (x5 : FVec Ideal S128x128 .f32) (x6 : FVec Ideal S128 .f32) :
    FVec Ideal S50000x128 .f32 :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 (dstIx x1))
    (messages x0 x1 x2 x3 x4 x5 x6)

/-- The program's result: the node layer of the node rows, the aggregated messages, the two row ranges of the first
    node weight, and the second node weight. -/
def G (x0 : FVec Ideal S50000x128 .f32) (x1 : IVec S2x600000 32) (x2 : FVec Ideal S600000x32 .f32)
    (x3 : FVec Ideal S288x128 .f32) (x4 : FVec Ideal S128 .f32) (x5 : FVec Ideal S128x128 .f32) (x6 : FVec Ideal S128 .f32)
    (x7 : FVec Ideal S256x128 .f32) (x8 : FVec Ideal S128 .f32) (x9 : FVec Ideal S128x128 .f32) (x10 : FVec Ideal S128 .f32) :
    Mat 50000 128 :=
  nodeLayer (R := 50000)
    x0
    (aggregated x0 x1 x2 x3 x4 x5 x6)
    (extractStridedSlice S128x128 ![0, 0] x7 slices_S256x128_S128x128_0_0)
    (extractStridedSlice S128x128 ![128, 0] x7 slices_S256x128_S128x128_128_0)
    (shapeCast S1x128 x8 shapeCasts_S128_S1x128)
    x9
    (shapeCast S1x128 x10 shapeCasts_S128_S1x128)

/-! ## The first host stretch, one buffer at a time, from any contents -/

section Stretch0
variable (X : Valuation τ sig (Elt Ideal))

theorem s0_v3 :
    @Eq (IVec S600000 32) (after (hostOps0 (F := Ideal)) X (Proc.devRef .tc main_v3))
      (dstIx (X (Proc.devRef .tc main_arg1) : IVec S2x600000 32)) := by
  after_results_simp <;> rfl
theorem s0_v4 :
    @Eq (FVec Ideal S50000x128 .bf16) (after (hostOps0 (F := Ideal)) X (Proc.devRef .tc main_v4))
      (X (Proc.devRef .tc main_arg0) : FVec Ideal S50000x128 .f32) := by
  after_results_simp <;> rfl
theorem s0_v11 :
    @Eq (FVec Ideal S600000x128 .bf16) (after (hostOps0 (F := Ideal)) X (Proc.devRef .tc main_v11))
      (Host.gather gather_S50000x128_S600000x1_S600000x128_1_0_n_n_0_1_1128 (X (Proc.devRef .tc main_arg0) : FVec Ideal S50000x128 .f32) (wrapCol (srcIx (X (Proc.devRef .tc main_arg1) : IVec S2x600000 32)))) := by
  after_results_simp <;> rfl
theorem s0_v18 :
    @Eq (FVec Ideal S600000x128 .bf16) (after (hostOps0 (F := Ideal)) X (Proc.devRef .tc main_v18))
      (Host.gather gather_S50000x128_S600000x1_S600000x128_1_0_n_n_0_1_1128 (X (Proc.devRef .tc main_arg0) : FVec Ideal S50000x128 .f32) (wrapCol (dstIx (X (Proc.devRef .tc main_arg1) : IVec S2x600000 32)))) := by
  after_results_simp <;> rfl
theorem s0_v19 :
    @Eq (FVec Ideal S600000x32 .bf16) (after (hostOps0 (F := Ideal)) X (Proc.devRef .tc main_v19))
      (X (Proc.devRef .tc main_arg2) : FVec Ideal S600000x32 .f32) := by
  after_results_simp <;> rfl
theorem s0_v21 :
    @Eq (FVec Ideal S128x128 .bf16) (after (hostOps0 (F := Ideal)) X (Proc.devRef .tc main_v21))
      (extractStridedSlice S128x128 ![0, 0] (X (Proc.devRef .tc main_arg3) : FVec Ideal S288x128 .f32) slices_S288x128_S128x128_0_0) := by
  after_results_simp <;> rfl
theorem s0_v23 :
    @Eq (FVec Ideal S128x128 .bf16) (after (hostOps0 (F := Ideal)) X (Proc.devRef .tc main_v23))
      (extractStridedSlice S128x128 ![128, 0] (X (Proc.devRef .tc main_arg3) : FVec Ideal S288x128 .f32) slices_S288x128_S128x128_128_0) := by
  after_results_simp <;> rfl
theorem s0_v25 :
    @Eq (FVec Ideal S32x128 .bf16) (after (hostOps0 (F := Ideal)) X (Proc.devRef .tc main_v25))
      (extractStridedSlice S32x128 ![256, 0] (X (Proc.devRef .tc main_arg3) : FVec Ideal S288x128 .f32) slices_S288x128_S32x128_256_0) := by
  after_results_simp <;> rfl
theorem s0_v26 :
    @Eq (FVec Ideal S128x128 .bf16) (after (hostOps0 (F := Ideal)) X (Proc.devRef .tc main_v26))
      (X (Proc.devRef .tc main_arg5) : FVec Ideal S128x128 .f32) := by
  after_results_simp <;> rfl
theorem s0_v27 :
    @Eq (FVec Ideal S1x128 .f32) (after (hostOps0 (F := Ideal)) X (Proc.devRef .tc main_v27))
      (shapeCast S1x128 (X (Proc.devRef .tc main_arg4) : FVec Ideal S128 .f32) shapeCasts_S128_S1x128) := by
  after_results_simp <;> rfl
theorem s0_v28 :
    @Eq (FVec Ideal S1x128 .f32) (after (hostOps0 (F := Ideal)) X (Proc.devRef .tc main_v28))
      (shapeCast S1x128 (X (Proc.devRef .tc main_arg6) : FVec Ideal S128 .f32) shapeCasts_S128_S1x128) := by
  after_results_simp <;> rfl
/-- The first stretch writes no argument array. -/
theorem s0_arg7 : after (hostOps0 (F := Ideal)) X (Proc.devRef .tc main_arg7) = X (Proc.devRef .tc main_arg7) := by
  after_results_simp
theorem s0_arg8 : after (hostOps0 (F := Ideal)) X (Proc.devRef .tc main_arg8) = X (Proc.devRef .tc main_arg8) := by
  after_results_simp
theorem s0_arg9 : after (hostOps0 (F := Ideal)) X (Proc.devRef .tc main_arg9) = X (Proc.devRef .tc main_arg9) := by
  after_results_simp
theorem s0_arg10 : after (hostOps0 (F := Ideal)) X (Proc.devRef .tc main_arg10) = X (Proc.devRef .tc main_arg10) := by
  after_results_simp

end Stretch0

/-! ## The second host stretch, one buffer at a time, from any contents -/

section Stretch1
variable (Y : Valuation τ sig (Elt Ideal))

theorem s1_v4 :
    @Eq (FVec Ideal S50000x128 .bf16) (after (hostOps1 (F := Ideal)) Y (Proc.devRef .tc main_v4))
      (Y (Proc.devRef .tc main_v4)) := by
  after_results_simp
theorem s1_v33 :
    @Eq (FVec Ideal S50000x128 .bf16) (after (hostOps1 (F := Ideal)) Y (Proc.devRef .tc main_v33))
      (Host.scatterAdd (F := Ideal) scatter_S50000x128_S600000x1_S600000x128_1_0_0_1
        (broadcastInDim S50000x128 ![] bcast_S_S50000x128 (constant (F := Ideal) S_ .f32 0x00000000#32))
        (broadcastInDim S600000x1 ![0] bcast_S600000_S600000x1_0 (Y (Proc.devRef .tc main_v3) : IVec S600000 32))
        (Y (Proc.devRef .tc main_v29) : FVec Ideal S600000x128 .f32)) := by
  after_results_simp <;> rfl
theorem s1_v35 :
    @Eq (FVec Ideal S128x128 .bf16) (after (hostOps1 (F := Ideal)) Y (Proc.devRef .tc main_v35))
      (extractStridedSlice S128x128 ![0, 0] (Y (Proc.devRef .tc main_arg7) : FVec Ideal S256x128 .f32) slices_S256x128_S128x128_0_0) := by
  after_results_simp <;> rfl
theorem s1_v37 :
    @Eq (FVec Ideal S128x128 .bf16) (after (hostOps1 (F := Ideal)) Y (Proc.devRef .tc main_v37))
      (extractStridedSlice S128x128 ![128, 0] (Y (Proc.devRef .tc main_arg7) : FVec Ideal S256x128 .f32) slices_S256x128_S128x128_128_0) := by
  after_results_simp <;> rfl
theorem s1_v38 :
    @Eq (FVec Ideal S128x128 .bf16) (after (hostOps1 (F := Ideal)) Y (Proc.devRef .tc main_v38))
      (Y (Proc.devRef .tc main_arg9) : FVec Ideal S128x128 .f32) := by
  after_results_simp <;> rfl
theorem s1_v39 :
    @Eq (FVec Ideal S1x128 .f32) (after (hostOps1 (F := Ideal)) Y (Proc.devRef .tc main_v39))
      (shapeCast S1x128 (Y (Proc.devRef .tc main_arg8) : FVec Ideal S128 .f32) shapeCasts_S128_S1x128) := by
  after_results_simp <;> rfl
theorem s1_v40 :
    @Eq (FVec Ideal S1x128 .f32) (after (hostOps1 (F := Ideal)) Y (Proc.devRef .tc main_v40))
      (shapeCast S1x128 (Y (Proc.devRef .tc main_arg10) : FVec Ideal S128 .f32) shapeCasts_S128_S1x128) := by
  after_results_simp <;> rfl

end Stretch1

/-! ## The boundaries' contents, read back from the result's buffer to the launch memory -/

section Chain
variable (m : (ℓ : Loc nD τ sig) → Buf (Elt Ideal) ℓ) (ρ : Dev nD → PrngReg) (c : Dev nD)

/-- At the edge region's exit its output array holds every edge's message, of the launch contents. -/
theorem W2_messages :
    @Eq (FVec Ideal S600000x128 .f32) (W2 m ρ c (Proc.devRef .tc main_v29))
      (messages (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6))) := by
  refine (W2_arr m ρ c 9).trans ?_
  rw [Cert.KernelIdeal.EdgeArray.edge_array (V1 m ρ) c]
  dsimp only [V1, W1]
  rw [s0_v11, s0_v18, s0_v19, s0_v21, s0_v23, s0_v25, s0_v27, s0_v26, s0_v28]
  rfl

/-- At the node region's entry the aggregated-message operand is the aggregated messages, of the launch contents. -/
theorem W3_aggregated :
    @Eq (FVec Ideal S50000x128 .bf16) (W3 m ρ c (Proc.devRef .tc main_v33))
      (aggregated (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6))) := by
  dsimp only [W3]
  rw [s1_v33, W2_messages m ρ c]
  have h3 : @Eq (IVec S600000 32) (W2 m ρ c (Proc.devRef .tc main_v3)) (dstIx (m ((c : Thread nD τ).loc main_arg1))) := by
    refine (W2_of_ne m ρ c main_v3 (by decide)).trans ?_
    dsimp only [W1]
    rw [s0_v3]
  rw [h3]
  rfl

/-- The node region's other operands, at its entry, of the launch contents. -/
theorem W3_x : @Eq (FVec Ideal S50000x128 .bf16) (W3 m ρ c (Proc.devRef .tc main_v4))
    (m ((c : Thread nD τ).loc main_arg0)) := by
  dsimp only [W3]
  rw [s1_v4]
  refine (W2_of_ne m ρ c main_v4 (by decide)).trans ?_
  dsimp only [W1]
  rw [s0_v4]

theorem W2_arg7 : W2 m ρ c (Proc.devRef .tc main_arg7) = m ((c : Thread nD τ).loc main_arg7) := by
  refine (W2_of_ne m ρ c main_arg7 (by decide)).trans ?_
  dsimp only [W1]
  rw [s0_arg7]
theorem W2_arg8 : W2 m ρ c (Proc.devRef .tc main_arg8) = m ((c : Thread nD τ).loc main_arg8) := by
  refine (W2_of_ne m ρ c main_arg8 (by decide)).trans ?_
  dsimp only [W1]
  rw [s0_arg8]
theorem W2_arg9 : W2 m ρ c (Proc.devRef .tc main_arg9) = m ((c : Thread nD τ).loc main_arg9) := by
  refine (W2_of_ne m ρ c main_arg9 (by decide)).trans ?_
  dsimp only [W1]
  rw [s0_arg9]
theorem W2_arg10 : W2 m ρ c (Proc.devRef .tc main_arg10) = m ((c : Thread nD τ).loc main_arg10) := by
  refine (W2_of_ne m ρ c main_arg10 (by decide)).trans ?_
  dsimp only [W1]
  rw [s0_arg10]

/-- THE RESULT: at the last boundary the result's buffer holds the program's function of the launch contents of the
    eleven arguments. -/
theorem value :
    @Eq (FVec Ideal S50000x128 .f32) (W4 m ρ c (Proc.devRef .tc main_v41))
      (G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10))) := by
  refine (W4_arr m ρ c 7).trans ?_
  rw [Cert.KernelIdeal.NodeArray.node_array (V3 m ρ) c]
  have e35 : @Eq (FVec Ideal S128x128 .bf16) (V3 m ρ c main_v35)
      (extractStridedSlice S128x128 ![0, 0] (m ((c : Thread nD τ).loc main_arg7) : FVec Ideal S256x128 .f32) slices_S256x128_S128x128_0_0) := by
    dsimp only [V3, W3]; rw [s1_v35, W2_arg7 m ρ c]
  have e37 : @Eq (FVec Ideal S128x128 .bf16) (V3 m ρ c main_v37)
      (extractStridedSlice S128x128 ![128, 0] (m ((c : Thread nD τ).loc main_arg7) : FVec Ideal S256x128 .f32) slices_S256x128_S128x128_128_0) := by
    dsimp only [V3, W3]; rw [s1_v37, W2_arg7 m ρ c]
  have e39 : @Eq (FVec Ideal S1x128 .f32) (V3 m ρ c main_v39)
      (shapeCast S1x128 (m ((c : Thread nD τ).loc main_arg8) : FVec Ideal S128 .f32) shapeCasts_S128_S1x128) := by
    dsimp only [V3, W3]; rw [s1_v39, W2_arg8 m ρ c]
  have e38 : @Eq (FVec Ideal S128x128 .bf16) (V3 m ρ c main_v38)
      (m ((c : Thread nD τ).loc main_arg9) : FVec Ideal S128x128 .f32) := by
    dsimp only [V3, W3]; rw [s1_v38, W2_arg9 m ρ c]
  have e40 : @Eq (FVec Ideal S1x128 .f32) (V3 m ρ c main_v40)
      (shapeCast S1x128 (m ((c : Thread nD τ).loc main_arg10) : FVec Ideal S128 .f32) shapeCasts_S128_S1x128) := by
    dsimp only [V3, W3]; rw [s1_v40, W2_arg10 m ρ c]
  have e4 : @Eq (FVec Ideal S50000x128 .bf16) (V3 m ρ c main_v4) (m ((c : Thread nD τ).loc main_arg0)) :=
    W3_x m ρ c
  have e33 := W3_aggregated m ρ c
  rw [e35, e37, e39, e38, e40, e4]
  rw [show (V3 m ρ c main_v33) = W3 m ρ c (Proc.devRef .tc main_v33) from rfl, e33]
  rfl

end Chain

end Cert.KernelIdeal.Whole

end
-- ==== Proof.RefEdge.lean ====
/- The reference's edge messages are the edge layer. The reference joins the two gathered endpoint rows and the edge
   feature row into one row of 288 entries and multiplies by the whole first weight; entry by entry that is the sum of
   the three products with the weight's row ranges 0..127, 128..255 and 256..287 (a sum over a joined axis is the sum
   of the sums over its parts); its bias is the bias vector laid along every row, its rectifier the maximum with the
   zero word, and its second product and bias are read the same way. -/
import proofs.«174349_j85993835200698_1_alg».proof.Proof.Gen.ReferenceIdeal
import proofs.«174349_j85993835200698_1_alg».proof.Proof.Spec
import proofs.«174349_j85993835200698_1_alg».proof.Proof.LibDotPlain
import Idealize.ShloMosaic.Lib.Pipeline.Value
import Idealize.ShloMosaic.Lib.ValueLayout
import Idealize.ShloMosaic.PureOps.Ideal.Laws

noncomputable section

namespace Cert.ReferenceIdeal.RefEdge

open Idealize.ShloMosaic Idealize.ShloMosaic.TcCoe Idealize.ShloMosaic.ValueIdx
open Cert.ReferenceIdeal Cert.Gnn
open scoped BigOperators

/-! ## The joined row, part by part

A row of the join of three arrays along the second axis, read at a position of the joined axis, is the part that
holds the position, read at the position less the widths of the parts before it. -/

section Join
variable {α : Type} {R : Nat}

/-- A position in the first part (0..127) reads the first array at that position. -/
theorem cat_part0 (x y : (⟨2, ![R, 128]⟩ : Shape).Idx → α) (z : (⟨2, ![R, 32]⟩ : Shape).Idx → α)
    (h : Shape.Concatenates [(⟨2, ![R, 128]⟩ : Shape), ⟨2, ![R, 128]⟩, ⟨2, ![R, 32]⟩] ⟨2, ![R, 288]⟩ 1)
    (e : Fin R) (c : Fin 288) (a : Fin 128) (hc : c.val = a.val) :
    concatenate (⟨2, ![R, 288]⟩ : Shape) 1 [⟨⟨2, ![R, 128]⟩, x⟩, ⟨⟨2, ![R, 128]⟩, y⟩, ⟨⟨2, ![R, 32]⟩, z⟩] h (ix2 e c)
      = x (ix2 e a) := by
  refine concatenate_apply_piece (t := ⟨2, ![R, 288]⟩) 1 [⟨⟨2, ![R, 128]⟩, x⟩, ⟨⟨2, ![R, 128]⟩, y⟩, ⟨⟨2, ![R, 32]⟩, z⟩] h (ix2 e c) 0 (by show 0 < 3; decide) ⟨2, ![R, 128]⟩ x rfl rfl 0 rfl (ix2 e a) ?_ ?_
  · intro b hb
    match b with
    | ⟨0, _⟩ => rfl
    | ⟨1, _⟩ => exact absurd rfl hb
  · show 0 + a.val = c.val
    omega

/-- A position in the second part (128..255) reads the second array at that position less 128. -/
theorem cat_part1 (x y : (⟨2, ![R, 128]⟩ : Shape).Idx → α) (z : (⟨2, ![R, 32]⟩ : Shape).Idx → α)
    (h : Shape.Concatenates [(⟨2, ![R, 128]⟩ : Shape), ⟨2, ![R, 128]⟩, ⟨2, ![R, 32]⟩] ⟨2, ![R, 288]⟩ 1)
    (e : Fin R) (c : Fin 288) (a : Fin 128) (hc : c.val = 128 + a.val) :
    concatenate (⟨2, ![R, 288]⟩ : Shape) 1 [⟨⟨2, ![R, 128]⟩, x⟩, ⟨⟨2, ![R, 128]⟩, y⟩, ⟨⟨2, ![R, 32]⟩, z⟩] h (ix2 e c)
      = y (ix2 e a) := by
  refine concatenate_apply_piece (t := ⟨2, ![R, 288]⟩) 1 [⟨⟨2, ![R, 128]⟩, x⟩, ⟨⟨2, ![R, 128]⟩, y⟩, ⟨⟨2, ![R, 32]⟩, z⟩] h (ix2 e c) 1 (by show 1 < 3; decide) ⟨2, ![R, 128]⟩ y rfl rfl 128 rfl (ix2 e a) ?_ ?_
  · intro b hb
    match b with
    | ⟨0, _⟩ => rfl
    | ⟨1, _⟩ => exact absurd rfl hb
  · show 128 + a.val = c.val
    omega

/-- A position in the third part (256..287) reads the third array at that position less 256. -/
theorem cat_part2 (x y : (⟨2, ![R, 128]⟩ : Shape).Idx → α) (z : (⟨2, ![R, 32]⟩ : Shape).Idx → α)
    (h : Shape.Concatenates [(⟨2, ![R, 128]⟩ : Shape), ⟨2, ![R, 128]⟩, ⟨2, ![R, 32]⟩] ⟨2, ![R, 288]⟩ 1)
    (e : Fin R) (c : Fin 288) (a : Fin 32) (hc : c.val = 256 + a.val) :
    concatenate (⟨2, ![R, 288]⟩ : Shape) 1 [⟨⟨2, ![R, 128]⟩, x⟩, ⟨⟨2, ![R, 128]⟩, y⟩, ⟨⟨2, ![R, 32]⟩, z⟩] h (ix2 e c)
      = z (ix2 e a) := by
  refine concatenate_apply_piece (t := ⟨2, ![R, 288]⟩) 1 [⟨⟨2, ![R, 128]⟩, x⟩, ⟨⟨2, ![R, 128]⟩, y⟩, ⟨⟨2, ![R, 32]⟩, z⟩] h (ix2 e c) 2 (by show 2 < 3; decide) ⟨2, ![R, 32]⟩ z rfl rfl 256 rfl (ix2 e a) ?_ ?_
  · intro b hb
    match b with
    | ⟨0, _⟩ => rfl
    | ⟨1, _⟩ => exact absurd rfl hb
  · show 256 + a.val = c.val
    omega

end Join

/-! ## A range of the weight's rows -/

/-- The rows `off .. off + n - 1` of the weight, read at (a, k), are the weight at (off + a, k). -/
theorem slice_rows {α : Type} {n : Nat} (off : Nat) (W : (⟨2, ![288, 128]⟩ : Shape).Idx → α)
    (h : (⟨2, ![288, 128]⟩ : Shape).Slices ![off, 0] ⟨2, ![n, 128]⟩) (a : Fin n) (k : Fin 128) (c : Fin 288)
    (hc : c.val = off + a.val) :
    extractStridedSlice (⟨2, ![n, 128]⟩ : Shape) ![off, 0] W h (ix2 a k) = W (ix2 c k) := by
  refine extractStridedSlice_apply ![off, 0] W h (ix2 a k) (ix2 c k) ?_
  intro ax
  match ax with
  | ⟨0, _⟩ => exact hc
  | ⟨1, _⟩ => exact (Nat.zero_add _).symm

/-! ## The bias laid along every row, and the rectifier's zero -/

/-- A vector of 128 entries laid as one row and that row laid down every row of an R × 128 array reads, at (e, j),
    the vector's entry j. -/
theorem bias_apply {α : Type} {R : Nat} (b : S128.Idx → α)
    (hb1 : S128.BroadcastsInDim S1x128 (![1] : Fin 1 → Fin S1x128.rank))
    (hb2 : S1x128.BroadcastsInDim (⟨2, ![R, 128]⟩ : Shape) (![0, 1] : Fin 2 → Fin (⟨2, ![R, 128]⟩ : Shape).rank))
    (e : Fin R) (j : Fin 128) :
    broadcastInDim (⟨2, ![R, 128]⟩ : Shape) ![0, 1] hb2 (broadcastInDim S1x128 ![1] hb1 b) (ix2 e j) = b (ix1 j) := by
  refine (broadcastInDim_apply ![0, 1] hb2 _ (ix2 e j) (ix2 (0 : Fin 1) j) ?_).trans
    (broadcastInDim_apply ![1] hb1 b (ix2 (0 : Fin 1) j) (ix1 j) ?_)
  · intro a
    match a with
    | ⟨0, _⟩ => exact (if_pos rfl).symm
    | ⟨1, _⟩ => exact (if_neg (show ¬((128 : Nat) = 1) by decide)).symm
  · intro a
    match a with
    | ⟨0, _⟩ => exact (if_neg (show ¬((128 : Nat) = 1) by decide)).symm

/-- The zero word laid over the whole array reads the zero word's value everywhere. -/
theorem zero_apply {T : Shape} (hb0 : S_.BroadcastsInDim T (![] : Fin 0 → Fin T.rank)) (i : T.Idx) :
    broadcastInDim T ![] hb0 (constant (F := Ideal) S_ .f32 0x00000000#32) i = zeroE :=
  (broadcastInDim_apply ![] hb0 (constant (F := Ideal) S_ .f32 0x00000000#32) i ix0 (fun a => a.elim0)).trans
    (constant_apply _ _)

/-! ## The first product: a sum over the joined axis is the sum of the sums over its parts -/

/-- One entry of the joined row times the whole first weight: the three products with the weight's row ranges. -/
theorem joined_product {R : Nat} (xr xc : Mat R 128) (ea : Mat R 32) (W1 : Mat 288 128)
    (hcat : Shape.Concatenates [(⟨2, ![R, 128]⟩ : Shape), ⟨2, ![R, 128]⟩, ⟨2, ![R, 32]⟩] ⟨2, ![R, 288]⟩ 1)
    (hs0 : (⟨2, ![288, 128]⟩ : Shape).Slices ![0, 0] ⟨2, ![128, 128]⟩)
    (hs1 : (⟨2, ![288, 128]⟩ : Shape).Slices ![128, 0] ⟨2, ![128, 128]⟩)
    (hs2 : (⟨2, ![288, 128]⟩ : Shape).Slices ![256, 0] ⟨2, ![32, 128]⟩) (e : Fin R) (k : Fin 128) :
    (∑ a : Fin 288, concatenate (⟨2, ![R, 288]⟩ : Shape) 1
        [⟨⟨2, ![R, 128]⟩, xr⟩, ⟨⟨2, ![R, 128]⟩, xc⟩, ⟨⟨2, ![R, 32]⟩, ea⟩] hcat (ix2 e a) * W1 (ix2 a k))
      = ((∑ a : Fin 128, xr (ix2 e a) * extractStridedSlice (⟨2, ![128, 128]⟩ : Shape) ![0, 0] W1 hs0 (ix2 a k))
          + ∑ a : Fin 128, xc (ix2 e a) * extractStridedSlice (⟨2, ![128, 128]⟩ : Shape) ![128, 0] W1 hs1 (ix2 a k))
        + ∑ a : Fin 32, ea (ix2 e a) * extractStridedSlice (⟨2, ![32, 128]⟩ : Shape) ![256, 0] W1 hs2 (ix2 a k) := by
  refine (sum_join3 128 128 32 (fun a : Fin 288 => concatenate (⟨2, ![R, 288]⟩ : Shape) 1
        [⟨⟨2, ![R, 128]⟩, xr⟩, ⟨⟨2, ![R, 128]⟩, xc⟩, ⟨⟨2, ![R, 32]⟩, ea⟩] hcat (ix2 e a) * W1 (ix2 a k))).trans ?_
  refine congrArg₂ (· + ·) (congrArg₂ (· + ·) (Finset.sum_congr rfl fun a _ => ?_) (Finset.sum_congr rfl fun a _ => ?_))
    (Finset.sum_congr rfl fun a _ => ?_)
  · exact congrArg₂ (· * ·) (cat_part0 xr xc ea hcat e _ a rfl) (slice_rows 0 W1 hs0 a k _ (Nat.zero_add _).symm).symm
  · exact congrArg₂ (· * ·) (cat_part1 xr xc ea hcat e _ a rfl) (slice_rows 128 W1 hs1 a k _ rfl).symm
  · exact congrArg₂ (· * ·) (cat_part2 xr xc ea hcat e _ a rfl) (slice_rows 256 W1 hs2 a k _ rfl).symm

/-! ## One hidden unit, and the layer -/

/-- One hidden unit of the reference's first layer on row e: the product of the joined row with the whole first weight,
    the bias laid along the rows, and the maximum with the zero word, is the edge layer's hidden unit over the three
    operands and the weight's three row ranges. -/
theorem hidden_at {R : Nat} (d1 : DotDims ⟨2, ![R, 288]⟩ ⟨2, ![288, 128]⟩ ⟨2, ![R, 128]⟩)
    (hlb : d1.lhsBatch = []) (hrb : d1.rhsBatch = []) (hlc : d1.lhsContracting = [1]) (hrc : d1.rhsContracting = [0])
    (hln : d1.lhsNonContracting = [0]) (hrn : d1.rhsNonContracting = [1])
    (xr xc : FVec Ideal ⟨2, ![R, 128]⟩ .f32) (ea : FVec Ideal ⟨2, ![R, 32]⟩ .f32) (W1 : FVec Ideal S288x128 .f32)
    (b1 : FVec Ideal S128 .f32)
    (hcat : Shape.Concatenates [(⟨2, ![R, 128]⟩ : Shape), ⟨2, ![R, 128]⟩, ⟨2, ![R, 32]⟩] ⟨2, ![R, 288]⟩ 1)
    (hb1 : S128.BroadcastsInDim S1x128 (![1] : Fin 1 → Fin S1x128.rank))
    (hb2 : S1x128.BroadcastsInDim (⟨2, ![R, 128]⟩ : Shape) (![0, 1] : Fin 2 → Fin (⟨2, ![R, 128]⟩ : Shape).rank))
    (hb0 : S_.BroadcastsInDim (⟨2, ![R, 128]⟩ : Shape) (![] : Fin 0 → Fin (⟨2, ![R, 128]⟩ : Shape).rank))
    (hs0 : S288x128.Slices ![0, 0] S128x128) (hs1 : S288x128.Slices ![128, 0] S128x128)
    (hs2 : S288x128.Slices ![256, 0] (⟨2, ![32, 128]⟩ : Shape)) (hc : S128.ShapeCasts S1x128) (e : Fin R) (k : Fin 128) :
    maximumf (addf (Host.dotGeneral d1 none
          (concatenate (⟨2, ![R, 288]⟩ : Shape) 1 [⟨⟨2, ![R, 128]⟩, xr⟩, ⟨⟨2, ![R, 128]⟩, xc⟩, ⟨⟨2, ![R, 32]⟩, ea⟩] hcat) W1)
        (broadcastInDim (⟨2, ![R, 128]⟩ : Shape) ![0, 1] hb2 (broadcastInDim S1x128 ![1] hb1 b1)))
      (broadcastInDim (⟨2, ![R, 128]⟩ : Shape) ![] hb0 (constant (F := Ideal) S_ .f32 0x00000000#32)) (ix2 e k)
      = edgeHidden xr xc ea (extractStridedSlice S128x128 ![0, 0] W1 hs0) (extractStridedSlice S128x128 ![128, 0] W1 hs1)
          (extractStridedSlice (⟨2, ![32, 128]⟩ : Shape) ![256, 0] W1 hs2) (shapeCast S1x128 b1 hc) e k := by
  unfold edgeHidden
  refine (maximumf_apply _ _ _).trans
    (congrArg₂ max ((addf_apply _ _ _).trans (congrArg₂ (· + ·) ?_ ?_)) (zero_apply hb0 _))
  · exact (Cert.DotPlain.dotGeneral_rows_cols d1 hlb hrb hlc hrc hln hrn none .single _ W1 e k).trans
      (joined_product xr xc ea W1 hcat hs0 hs1 hs2 e k)
  · exact (bias_apply b1 hb1 hb2 e k).trans (shapeCast_a_1a_apply b1 hc 0 k).symm

theorem ref_edge (xr xc : FVec Ideal S600000x128 .f32) (ea : FVec Ideal S600000x32 .f32) (W1 : FVec Ideal S288x128 .f32)
    (b1 : FVec Ideal S128 .f32) (W2 : FVec Ideal S128x128 .f32) (b2 : FVec Ideal S128 .f32)
    (hcat : Shape.Concatenates [S600000x128, S600000x128, S600000x32] S600000x288 1)
    (hb1 : S128.BroadcastsInDim S1x128 (![1] : Fin 1 → Fin S1x128.rank))
    (hb2 : S1x128.BroadcastsInDim S600000x128 (![0, 1] : Fin 2 → Fin S600000x128.rank))
    (hb0 : S_.BroadcastsInDim S600000x128 (![] : Fin 0 → Fin S600000x128.rank))
    (hs0 : S288x128.Slices ![0, 0] S128x128) (hs1 : S288x128.Slices ![128, 0] S128x128)
    (hs2 : S288x128.Slices ![256, 0] (⟨2, ![32, 128]⟩ : Shape)) (hc : S128.ShapeCasts S1x128) :
    addf (Host.dotGeneral dot_S600000x128_S128x128_S600000x128_1_0_0_1_n_n none
          (maximumf (addf (Host.dotGeneral dot_S600000x288_S288x128_S600000x128_1_0_0_1_n_n none
              (concatenate S600000x288 1 [⟨S600000x128, xr⟩, ⟨S600000x128, xc⟩, ⟨S600000x32, ea⟩] hcat) W1)
            (broadcastInDim S600000x128 ![0, 1] hb2 (broadcastInDim S1x128 ![1] hb1 b1)))
            (broadcastInDim S600000x128 ![] hb0 (constant (F := Ideal) S_ .f32 0x00000000#32))) W2)
        (broadcastInDim S600000x128 ![0, 1] hb2 (broadcastInDim S1x128 ![1] hb1 b2))
      = edgeLayer (R := 600000) xr xc ea (extractStridedSlice S128x128 ![0, 0] W1 hs0)
          (extractStridedSlice S128x128 ![128, 0] W1 hs1) (extractStridedSlice (⟨2, ![32, 128]⟩ : Shape) ![256, 0] W1 hs2)
          (shapeCast S1x128 b1 hc) W2 (shapeCast S1x128 b2 hc) := by
  funext i
  obtain ⟨e, j, rfl⟩ : ∃ (e : Fin 600000) (j : Fin 128), i = ix2 e j := ⟨i 0, i 1, eq_ix2 i⟩
  unfold edgeLayer
  -- the second product and its bias, read at (e, j)
  refine (addf_apply _ _ _).trans (congrArg₂ (· + ·) ?_ ?_)
  · refine (Cert.DotPlain.dotGeneral_rows_cols dot_S600000x128_S128x128_S600000x128_1_0_0_1_n_n rfl rfl rfl rfl rfl rfl
      none .single _ W2 e j).trans ?_
    -- every summand's hidden unit is the edge layer's
    exact Finset.sum_congr rfl fun k _ => congrArg (· * W2 (ix2 k j))
      (hidden_at dot_S600000x288_S288x128_S600000x128_1_0_0_1_n_n rfl rfl rfl rfl rfl rfl xr xc ea W1 b1 hcat hb1 hb2 hb0
        hs0 hs1 hs2 hc e k)
  · exact (bias_apply b2 hb1 hb2 e j).trans (shapeCast_a_1a_apply b2 hc 0 j).symm

end Cert.ReferenceIdeal.RefEdge

end
-- ==== Proof.RefNode.lean ====
/- The reference's node update is the node layer. The reference joins a node's own row and its aggregated messages into
   one row of 256 entries and multiplies by the whole first weight; entry by entry that is the sum of the two products
   with the weight's row ranges 0..127 and 128..255; bias, rectifier, second product and bias as in the edge layer. -/
import proofs.«174349_j85993835200698_1_alg».proof.Proof.Gen.ReferenceIdeal
import proofs.«174349_j85993835200698_1_alg».proof.Proof.Spec
import proofs.«174349_j85993835200698_1_alg».proof.Proof.LibDotPlain
import Idealize.ShloMosaic.Lib.Pipeline.Value
import Idealize.ShloMosaic.Lib.ValueLayout
import Idealize.ShloMosaic.PureOps.Ideal.Laws

noncomputable section

namespace Cert.ReferenceIdeal.RefNode

open Idealize.ShloMosaic Idealize.ShloMosaic.TcCoe Idealize.ShloMosaic.ValueIdx
open Cert.ReferenceIdeal Cert.Gnn
open scoped BigOperators

/-! ## The pieces read at one index -/

/-- A bias vector laid along a one-row matrix and then down every row reads, at (e, j), the vector's entry j. -/
theorem bias_apply {R : Nat} (b : (⟨1, ![128]⟩ : Shape).Idx → EReal)
    (hb1 : (⟨1, ![128]⟩ : Shape).BroadcastsInDim ⟨2, ![1, 128]⟩ (![1] : Fin 1 → Fin 2))
    (hb2 : (⟨2, ![1, 128]⟩ : Shape).BroadcastsInDim ⟨2, ![R, 128]⟩ (![0, 1] : Fin 2 → Fin 2))
    (e : Fin R) (j : Fin 128) :
    broadcastInDim (⟨2, ![R, 128]⟩ : Shape) ![0, 1] hb2 (broadcastInDim (⟨2, ![1, 128]⟩ : Shape) ![1] hb1 b) (ix2 e j)
      = b (ix1 j) := by
  refine (broadcastInDim_apply _ hb2 _ (ix2 e j) (ix2 (0 : Fin 1) j) (fun a => ?_)).trans
    (broadcastInDim_apply _ hb1 b (ix2 (0 : Fin 1) j) (ix1 j) (fun a => ?_))
  · match a with
    | ⟨0, _⟩ => show (0 : Nat) = if (1 : Nat) = 1 then 0 else e.val; rw [if_pos rfl]
    | ⟨1, _⟩ => show j.val = if (128 : Nat) = 1 then 0 else j.val; rw [if_neg (by decide)]
  · match a with
    | ⟨0, _⟩ => show j.val = if (128 : Nat) = 1 then 0 else j.val; rw [if_neg (by decide)]

/-- The rectifier's threshold laid over the whole array reads the zero word's value everywhere. -/
theorem zero_apply {R : Nat}
    (hb0 : (⟨0, ![]⟩ : Shape).BroadcastsInDim ⟨2, ![R, 128]⟩ (![] : Fin 0 → Fin 2))
    (i : (⟨2, ![R, 128]⟩ : Shape).Idx) :
    broadcastInDim (⟨2, ![R, 128]⟩ : Shape) ![] hb0 (constant (F := Ideal) (⟨0, ![]⟩ : Shape) .f32 0x00000000#32) i = zeroE :=
  (broadcastInDim_apply _ hb0 _ i ix0 (fun a => a.elim0)).trans rfl

/-- The joined row at a position in its first half is the node's own row there. -/
theorem cat_left {R : Nat} (x ag : (⟨2, ![R, 128]⟩ : Shape).Idx → EReal)
    (hcat : Shape.Concatenates [(⟨2, ![R, 128]⟩ : Shape), ⟨2, ![R, 128]⟩] ⟨2, ![R, 256]⟩ 1)
    (e : Fin R) (a : Fin 128) (k : Fin 256) (hk : k.val = a.val) :
    concatenate (⟨2, ![R, 256]⟩ : Shape) 1 [⟨(⟨2, ![R, 128]⟩ : Shape), x⟩, ⟨(⟨2, ![R, 128]⟩ : Shape), ag⟩] hcat (ix2 e k)
      = x (ix2 e a) :=
  concatenate_pair_apply_left 1 x ag hcat (ix2 e k) rfl (ix2 e a) (fun b => by
    match b with
    | ⟨0, _⟩ => rfl
    | ⟨1, _⟩ => exact hk.symm)

/-- The joined row at a position in its second half is the aggregated-message row, 128 places back. -/
theorem cat_right {R : Nat} (x ag : (⟨2, ![R, 128]⟩ : Shape).Idx → EReal)
    (hcat : Shape.Concatenates [(⟨2, ![R, 128]⟩ : Shape), ⟨2, ![R, 128]⟩] ⟨2, ![R, 256]⟩ 1)
    (e : Fin R) (a : Fin 128) (k : Fin 256) (hk : k.val = 128 + a.val) :
    concatenate (⟨2, ![R, 256]⟩ : Shape) 1 [⟨(⟨2, ![R, 128]⟩ : Shape), x⟩, ⟨(⟨2, ![R, 128]⟩ : Shape), ag⟩] hcat (ix2 e k)
      = ag (ix2 e a) :=
  concatenate_pair_apply_right 1 x ag hcat (ix2 e k) rfl rfl (ix2 e a) (fun b hb => by
    match b, hb with
    | ⟨0, _⟩, _ => rfl
    | ⟨1, _⟩, hb => exact absurd rfl hb) (by
    show a.val + 128 = k.val
    omega)

/-- The first weight's row range starting at row o, read at (a, k), is the weight at (o + a, k). -/
theorem slice_apply (W1 : (⟨2, ![256, 128]⟩ : Shape).Idx → EReal) (o : Nat)
    (hs : (⟨2, ![256, 128]⟩ : Shape).Slices ![o, 0] ⟨2, ![128, 128]⟩) (a k : Fin 128) (r : Fin 256) (hr : r.val = o + a.val) :
    extractStridedSlice (⟨2, ![128, 128]⟩ : Shape) ![o, 0] W1 hs (ix2 a k) = W1 (ix2 r k) :=
  extractStridedSlice_apply _ W1 hs (ix2 a k) (ix2 r k) (fun c => by
    match c with
    | ⟨0, _⟩ => exact hr
    | ⟨1, _⟩ => show k.val = 0 + k.val; rw [Nat.zero_add])

/-! ## One hidden unit -/

/-- The first product for one hidden unit: the sum over the joined axis of 256 entries is the sum of the two sums over
    its halves, the first against the weight's rows 0..127, the second against its rows 128..255. -/
theorem inner_sum {R : Nat} (x ag : (⟨2, ![R, 128]⟩ : Shape).Idx → EReal) (W1 : (⟨2, ![256, 128]⟩ : Shape).Idx → EReal)
    (hcat : Shape.Concatenates [(⟨2, ![R, 128]⟩ : Shape), ⟨2, ![R, 128]⟩] ⟨2, ![R, 256]⟩ 1)
    (hs0 : (⟨2, ![256, 128]⟩ : Shape).Slices ![0, 0] ⟨2, ![128, 128]⟩)
    (hs1 : (⟨2, ![256, 128]⟩ : Shape).Slices ![128, 0] ⟨2, ![128, 128]⟩) (e : Fin R) (k : Fin 128) :
    (∑ a : Fin 256, concatenate (⟨2, ![R, 256]⟩ : Shape) 1
        [⟨(⟨2, ![R, 128]⟩ : Shape), x⟩, ⟨(⟨2, ![R, 128]⟩ : Shape), ag⟩] hcat (ix2 e a) * W1 (ix2 a k))
      = (∑ a : Fin 128, x (ix2 e a) * extractStridedSlice (⟨2, ![128, 128]⟩ : Shape) ![0, 0] W1 hs0 (ix2 a k))
        + ∑ a : Fin 128, ag (ix2 e a) * extractStridedSlice (⟨2, ![128, 128]⟩ : Shape) ![128, 0] W1 hs1 (ix2 a k) := by
  -- a sum over the joined axis is the sum of the sums over its two parts
  refine (sum_join2 128 128 (fun a : Fin (128 + 128) => concatenate (⟨2, ![R, 256]⟩ : Shape) 1
        [⟨(⟨2, ![R, 128]⟩ : Shape), x⟩, ⟨(⟨2, ![R, 128]⟩ : Shape), ag⟩] hcat (ix2 e a) * W1 (ix2 a k))).trans ?_
  refine congrArg₂ (· + ·) (Finset.sum_congr rfl fun a _ => ?_) (Finset.sum_congr rfl fun a _ => ?_)
  · -- first half: position a of the joined row is the node's own entry a, against weight row a
    exact congrArg₂ (· * ·) (cat_left x ag hcat e a (Fin.castAdd 128 a) rfl)
      (slice_apply W1 0 hs0 a k (Fin.castAdd 128 a) (Nat.zero_add _).symm).symm
  · -- second half: position 128 + a is the aggregated entry a, against weight row 128 + a
    exact congrArg₂ (· * ·) (cat_right x ag hcat e a (Fin.natAdd 128 a) rfl)
      (slice_apply W1 128 hs1 a k (Fin.natAdd 128 a) rfl).symm

/-- One hidden unit of the reference (first product over the joined row, bias, rectifier) is the node layer's hidden unit. -/
theorem hidden_apply {R : Nat} (x ag : (⟨2, ![R, 128]⟩ : Shape).Idx → EReal) (W1 : (⟨2, ![256, 128]⟩ : Shape).Idx → EReal)
    (b1 : (⟨1, ![128]⟩ : Shape).Idx → EReal)
    (hcat : Shape.Concatenates [(⟨2, ![R, 128]⟩ : Shape), ⟨2, ![R, 128]⟩] ⟨2, ![R, 256]⟩ 1)
    (hb1 : (⟨1, ![128]⟩ : Shape).BroadcastsInDim ⟨2, ![1, 128]⟩ (![1] : Fin 1 → Fin 2))
    (hb2 : (⟨2, ![1, 128]⟩ : Shape).BroadcastsInDim ⟨2, ![R, 128]⟩ (![0, 1] : Fin 2 → Fin 2))
    (hb0 : (⟨0, ![]⟩ : Shape).BroadcastsInDim ⟨2, ![R, 128]⟩ (![] : Fin 0 → Fin 2))
    (hs0 : (⟨2, ![256, 128]⟩ : Shape).Slices ![0, 0] ⟨2, ![128, 128]⟩)
    (hs1 : (⟨2, ![256, 128]⟩ : Shape).Slices ![128, 0] ⟨2, ![128, 128]⟩)
    (hc : (⟨1, ![128]⟩ : Shape).ShapeCasts ⟨2, ![1, 128]⟩) (e : Fin R) (k : Fin 128) :
    max ((∑ a : Fin 256, concatenate (⟨2, ![R, 256]⟩ : Shape) 1
            [⟨(⟨2, ![R, 128]⟩ : Shape), x⟩, ⟨(⟨2, ![R, 128]⟩ : Shape), ag⟩] hcat (ix2 e a) * W1 (ix2 a k))
          + broadcastInDim (⟨2, ![R, 128]⟩ : Shape) ![0, 1] hb2 (broadcastInDim (⟨2, ![1, 128]⟩ : Shape) ![1] hb1 b1) (ix2 e k))
        (broadcastInDim (⟨2, ![R, 128]⟩ : Shape) ![] hb0 (constant (F := Ideal) (⟨0, ![]⟩ : Shape) .f32 0x00000000#32) (ix2 e k))
      = nodeHidden x ag (extractStridedSlice (⟨2, ![128, 128]⟩ : Shape) ![0, 0] W1 hs0)
          (extractStridedSlice (⟨2, ![128, 128]⟩ : Shape) ![128, 0] W1 hs1) (shapeCast (⟨2, ![1, 128]⟩ : Shape) b1 hc) e k := by
  rw [inner_sum x ag W1 hcat hs0 hs1 e k, bias_apply b1 hb1 hb2 e k, zero_apply hb0 (ix2 e k)]
  unfold nodeHidden
  rw [shapeCast_a_1a_apply b1 hc (0 : Fin 1) k]

theorem ref_node (x ag : FVec Ideal S50000x128 .f32) (W1 : FVec Ideal S256x128 .f32)
    (b1 : FVec Ideal S128 .f32) (W2 : FVec Ideal S128x128 .f32) (b2 : FVec Ideal S128 .f32)
    (hcat : Shape.Concatenates [S50000x128, S50000x128] S50000x256 1)
    (hb1 : S128.BroadcastsInDim S1x128 (![1] : Fin 1 → Fin S1x128.rank))
    (hb2 : S1x128.BroadcastsInDim S50000x128 (![0, 1] : Fin 2 → Fin S50000x128.rank))
    (hb0 : S_.BroadcastsInDim S50000x128 (![] : Fin 0 → Fin S50000x128.rank))
    (hs0 : S256x128.Slices ![0, 0] S128x128) (hs1 : S256x128.Slices ![128, 0] S128x128) (hc : S128.ShapeCasts S1x128) :
    addf (Host.dotGeneral dot_S50000x128_S128x128_S50000x128_1_0_0_1_n_n none
          (maximumf (addf (Host.dotGeneral dot_S50000x256_S256x128_S50000x128_1_0_0_1_n_n none
              (concatenate S50000x256 1 [⟨S50000x128, x⟩, ⟨S50000x128, ag⟩] hcat) W1)
            (broadcastInDim S50000x128 ![0, 1] hb2 (broadcastInDim S1x128 ![1] hb1 b1)))
            (broadcastInDim S50000x128 ![] hb0 (constant (F := Ideal) S_ .f32 0x00000000#32))) W2)
        (broadcastInDim S50000x128 ![0, 1] hb2 (broadcastInDim S1x128 ![1] hb1 b2))
      = nodeLayer (R := 50000) x ag (extractStridedSlice S128x128 ![0, 0] W1 hs0)
          (extractStridedSlice S128x128 ![128, 0] W1 hs1) (shapeCast S1x128 b1 hc) W2 (shapeCast S1x128 b2 hc) := by
  funext i
  obtain ⟨e, j, rfl⟩ : ∃ (e : Fin 50000) (j : Fin 128), i = ix2 e j := ⟨i 0, i 1, eq_ix2 i⟩
  -- outermost: the second product at (e, j) is a sum over the hidden units; the second bias is the vector's entry j
  refine (addf_apply _ _ (ix2 e j)).trans ?_
  refine (congrArg₂ (· + ·)
    (Cert.DotPlain.dotGeneral_rows_cols dot_S50000x128_S128x128_S50000x128_1_0_0_1_n_n rfl rfl rfl rfl rfl rfl
      none .single _ W2 e j)
    (bias_apply b2 hb1 hb2 e j)).trans ?_
  show _ = (∑ k : Fin 128, nodeHidden x ag _ _ _ e k * W2 (ix2 k j)) + shapeCast S1x128 b2 hc (ix2 (0 : Fin 1) j)
  rw [shapeCast_a_1a_apply b2 hc (0 : Fin 1) j]
  refine congrArg (· + b2 (ix1 j)) (Finset.sum_congr rfl fun k _ => ?_)
  refine congrArg (· * W2 (ix2 k j)) ?_
  -- one hidden unit: rectifier, first bias, first product over the joined row
  refine (maximumf_apply _ _ (ix2 e k)).trans ?_
  refine (congrArg (max · _) ((addf_apply _ _ (ix2 e k)).trans (congrArg (· + _)
    (Cert.DotPlain.dotGeneral_rows_cols dot_S50000x256_S256x128_S50000x128_1_0_0_1_n_n rfl rfl rfl rfl rfl rfl
      none .single _ W1 e k)))).trans ?_
  exact hidden_apply x ag W1 b1 hcat hb1 hb2 hb0 hs0 hs1 hc e k

end Cert.ReferenceIdeal.RefNode

end
-- ==== Proof.RefValue.lean ====
/- The reference's result is the same function of the argument arrays as the kernel program's.

   The reference's run ends with its result at the composed term of its operations. Its edge messages are the edge
   layer and its node update the node layer (the two lemmas on a product with a joined row); the gathers, the index
   wrap and the scatter-add are the same operations on the same index rows in both programs. So the term is the kernel
   program's function. -/
import proofs.«174349_j85993835200698_1_alg».proof.Proof.Gen.ReferenceIdeal.Run
import proofs.«174349_j85993835200698_1_alg».proof.Proof.RefEdge
import proofs.«174349_j85993835200698_1_alg».proof.Proof.RefNode
import proofs.«174349_j85993835200698_1_alg».proof.Proof.KernelValue

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The two programs gather rows with the same dimension numbers. -/
theorem gather_eq : @Eq (GatherDims (⟨2, ![50000, 128]⟩ : Shape) ⟨2, ![600000, 1]⟩ ⟨2, ![600000, 128]⟩)
    Cert.KernelIdeal.gather_S50000x128_S600000x1_S600000x128_1_0_n_n_0_1_1128
    Cert.ReferenceIdeal.gather_S50000x128_S600000x1_S600000x128_1_0_n_n_0_1_1128 := rfl

/-- The two programs add the messages into the node rows with the same dimension numbers. -/
theorem scatter_eq : @Eq (ScatterDims (⟨2, ![50000, 128]⟩ : Shape) ⟨2, ![600000, 1]⟩ ⟨2, ![600000, 128]⟩)
    Cert.KernelIdeal.scatter_S50000x128_S600000x1_S600000x128_1_0_0_1
    Cert.ReferenceIdeal.scatter_S50000x128_S600000x1_S600000x128_1_0_0_1 := rfl

/-- The reference run's result term, of any argument arrays, is the kernel program's function of them. -/
theorem result_eq (x0 : FVec Ideal S50000x128 .f32) (x1 : IVec S2x600000 32) (x2 : FVec Ideal S600000x32 .f32)
    (x3 : FVec Ideal S288x128 .f32) (x4 : FVec Ideal S128 .f32) (x5 : FVec Ideal S128x128 .f32) (x6 : FVec Ideal S128 .f32)
    (x7 : FVec Ideal S256x128 .f32) (x8 : FVec Ideal S128 .f32) (x9 : FVec Ideal S128x128 .f32) (x10 : FVec Ideal S128 .f32) :
    @Eq (FVec Ideal S50000x128 .f32)
      (addf (Host.dotGeneral (F := Ideal) dot_S50000x128_S128x128_S50000x128_1_0_0_1_n_n none (maximumf (addf (Host.dotGeneral (F := Ideal) dot_S50000x256_S256x128_S50000x128_1_0_0_1_n_n none (concatenate S50000x256 1 [⟨S50000x128, x0⟩, ⟨S50000x128, (Host.scatterAdd (F := Ideal) scatter_S50000x128_S600000x1_S600000x128_1_0_0_1 (broadcastInDim S50000x128 ![] bcast_S_S50000x128 (constant (F := Ideal) S_ .f32 0x00000000#32)) (broadcastInDim S600000x1 ![0] bcast_S600000_S600000x1_0 (shapeCast _ (extractStridedSlice S1x600000 ![1, 0] x1 slices_S2x600000_S1x600000_1_0) shapeCasts_S1x600000_S600000)) (addf (Host.dotGeneral (F := Ideal) dot_S600000x128_S128x128_S600000x128_1_0_0_1_n_n none (maximumf (addf (Host.dotGeneral (F := Ideal) dot_S600000x288_S288x128_S600000x128_1_0_0_1_n_n none (concatenate S600000x288 1 [⟨S600000x128, (Host.gather gather_S50000x128_S600000x1_S600000x128_1_0_n_n_0_1_1128 x0 (broadcastInDim S600000x1 ![0] bcast_S600000_S600000x1_0 (select (cmpi .slt (shapeCast _ (extractStridedSlice S1x600000 ![0, 0] x1 slices_S2x600000_S1x600000_0_0) shapeCasts_S1x600000_S600000) (broadcastInDim S600000 ![] bcast_S_S600000 (constantI S_ 32 0#32))) (addi (shapeCast _ (extractStridedSlice S1x600000 ![0, 0] x1 slices_S2x600000_S1x600000_0_0) shapeCasts_S1x600000_S600000) (broadcastInDim S600000 ![] bcast_S_S600000 (constantI S_ 32 50000#32))) (shapeCast _ (extractStridedSlice S1x600000 ![0, 0] x1 slices_S2x600000_S1x600000_0_0) shapeCasts_S1x600000_S600000))))⟩, ⟨S600000x128, (Host.gather gather_S50000x128_S600000x1_S600000x128_1_0_n_n_0_1_1128 x0 (broadcastInDim S600000x1 ![0] bcast_S600000_S600000x1_0 (select (cmpi .slt (shapeCast _ (extractStridedSlice S1x600000 ![1, 0] x1 slices_S2x600000_S1x600000_1_0) shapeCasts_S1x600000_S600000) (broadcastInDim S600000 ![] bcast_S_S600000 (constantI S_ 32 0#32))) (addi (shapeCast _ (extractStridedSlice S1x600000 ![1, 0] x1 slices_S2x600000_S1x600000_1_0) shapeCasts_S1x600000_S600000) (broadcastInDim S600000 ![] bcast_S_S600000 (constantI S_ 32 50000#32))) (shapeCast _ (extractStridedSlice S1x600000 ![1, 0] x1 slices_S2x600000_S1x600000_1_0) shapeCasts_S1x600000_S600000))))⟩, ⟨S600000x32, x2⟩] concatenates_S600000x128_S600000x128_S600000x32_S600000x288_d1) x3) (broadcastInDim S600000x128 ![0, 1] bcast_S1x128_S600000x128_0_1 (broadcastInDim S1x128 ![1] bcast_S128_S1x128_1 x4))) (broadcastInDim S600000x128 ![] bcast_S_S600000x128 (constant (F := Ideal) S_ .f32 0x00000000#32))) x5) (broadcastInDim S600000x128 ![0, 1] bcast_S1x128_S600000x128_0_1 (broadcastInDim S1x128 ![1] bcast_S128_S1x128_1 x6))))⟩] concatenates_S50000x128_S50000x128_S50000x256_d1) x7) (broadcastInDim S50000x128 ![0, 1] bcast_S1x128_S50000x128_0_1 (broadcastInDim S1x128 ![1] bcast_S128_S1x128_1 x8))) (broadcastInDim S50000x128 ![] bcast_S_S50000x128 (constant (F := Ideal) S_ .f32 0x00000000#32))) x9) (broadcastInDim S50000x128 ![0, 1] bcast_S1x128_S50000x128_0_1 (broadcastInDim S1x128 ![1] bcast_S128_S1x128_1 x10)))
      (Cert.KernelIdeal.Whole.G x0 x1 x2 x3 x4 x5 x6 x7 x8 x9 x10) := by
  rw [Cert.ReferenceIdeal.RefNode.ref_node (hs0 := Cert.KernelIdeal.Gen.slices_S256x128_S128x128_0_0)
        (hs1 := Cert.KernelIdeal.Gen.slices_S256x128_S128x128_128_0) (hc := Cert.KernelIdeal.Gen.shapeCasts_S128_S1x128),
      Cert.ReferenceIdeal.RefEdge.ref_edge (hs0 := Cert.KernelIdeal.Gen.slices_S288x128_S128x128_0_0)
        (hs1 := Cert.KernelIdeal.Gen.slices_S288x128_S128x128_128_0) (hs2 := Cert.KernelIdeal.Gen.slices_S288x128_S32x128_256_0)
        (hc := Cert.KernelIdeal.Gen.shapeCasts_S128_S1x128)]
  -- what is left differs only in which program's copy of the same dimension numbers, shapes and index rows is named
  unfold Cert.KernelIdeal.Whole.G Cert.KernelIdeal.Whole.aggregated Cert.KernelIdeal.Whole.messages Cert.KernelIdeal.Whole.wrapCol
    Cert.KernelIdeal.Whole.srcIx Cert.KernelIdeal.Whole.dstIx
  rw [gather_eq, scatter_eq]

end Cert.ReferenceIdeal.RefValue

end
-- ==== Proof.lean ====
/- The kernel program (gather the endpoint rows, a two-layer edge perceptron as a sum of three products, add the
   messages into their target nodes, a two-layer node perceptron as a sum of two products) against the reference (the
   same with the rows joined before one product), over the extended reals.

   Frames: the two kernel programs' are the generated several-region frames; the reference has no kernel and its frame
   is its run with the result dropped. Nothing was rewritten by the idealization, so there is nothing to preserve.
   Values: the kernel program's result buffer ends at one function G of the eleven argument arrays (each region's output
   array is its layer of the arrays it is entered with, read back through the host operations between them), and the
   reference's result term is that same function: a product with a joined row is the sum of the products with the
   parts, by commutativity and associativity of addition alone, so the finiteness of the inputs is never used. -/
import proofs.«174349_j85993835200698_1_alg».proof.Defs
import proofs.«174349_j85993835200698_1_alg».proof.Proof.Gen.Kernel
import proofs.«174349_j85993835200698_1_alg».proof.Proof.Gen.Kernel.Skeleton
import proofs.«174349_j85993835200698_1_alg».proof.Proof.Gen.Kernel.Launch
import proofs.«174349_j85993835200698_1_alg».proof.Proof.Gen.Kernel.Points
import proofs.«174349_j85993835200698_1_alg».proof.Proof.Gen.Kernel.Frame
import proofs.«174349_j85993835200698_1_alg».proof.Proof.Gen.KernelIdeal
import proofs.«174349_j85993835200698_1_alg».proof.Proof.Gen.KernelIdeal.Skeleton
import proofs.«174349_j85993835200698_1_alg».proof.Proof.Gen.KernelIdeal.Launch
import proofs.«174349_j85993835200698_1_alg».proof.Proof.Gen.KernelIdeal.Points
import proofs.«174349_j85993835200698_1_alg».proof.Proof.Gen.KernelIdeal.Frame
import proofs.«174349_j85993835200698_1_alg».proof.Proof.Gen.ReferenceIdeal
import proofs.«174349_j85993835200698_1_alg».proof.Proof.Gen.ReferenceIdeal.Run
import proofs.«174349_j85993835200698_1_alg».proof.Proof.Gen.Pre_finite_inputs
import proofs.«174349_j85993835200698_1_alg».proof.Proof.KernelRun
import proofs.«174349_j85993835200698_1_alg».proof.Proof.KernelValue
import proofs.«174349_j85993835200698_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run, the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with their result at G of the argument arrays, which agree. -/
theorem algebraic : Cert.algebraic_KernelIdeal_ReferenceIdeal := by
  intro m ρ m' ρ' _ hagree
  refine ⟨fun c => Cert.KernelIdeal.Whole.G
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Whole.value m ρ c), (h c).2⟩)
      (Cert.KernelIdeal.Run.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10⟩ := hagree c
    rw [h0, h1, h2, h3, h4, h5, h6, h7, h8, h9, h10]
    exact Cert.ReferenceIdeal.RefValue.result_eq _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
